-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x96x320 : Shape := ⟨4, ![8, 256, 96, 320]⟩
abbrev S_ : Shape := ⟨0, ![]⟩

class Facts : Prop where
  bcast_S_S8x256x96x320 : S_.BroadcastsInDim S8x256x96x320 (![] : Fin 0 → Fin S8x256x96x320.rank)
  reducesTo_S8x256x96x320_S_d0_1_2_3 : S8x256x96x320.ReducesTo [0, 1, 2, 3] S_
  h_S_ : 0 < S_.numel

variable [Facts]

def fn {F : FTy → Type} [FloatOps F] (main_arg0 : FVec F S8x256x96x320 .f32) (main_arg1 : FVec F S8x256x96x320 .f32) : IVec S_ 1 :=
  let main_v0 : FVec F S8x256x96x320 .f32 := Host.absf main_arg0
  let main_cst : FVec F S_ .f32 := constant S_ .f32 0x7F800000#32
  let main_v1 : FVec F S8x256x96x320 .f32 := broadcastInDim S8x256x96x320 ![] bcast_S_S8x256x96x320 main_cst
  let main_v2 : IVec S8x256x96x320 1 := cmpf .olt main_v0 main_v1
  let main_c : IVec S_ 1 := constantI S_ 1 1#1
  let main_v3 : IVec S_ 1 := (fun x v => Host.reduce IntOp.andi x v reducesTo_S8x256x96x320_S_d0_1_2_3 h_S_) main_v2 main_c
  let main_v4 : FVec F S8x256x96x320 .f32 := Host.absf main_arg1
  let main_cst_0 : FVec F S_ .f32 := constant S_ .f32 0x7F800000#32
  let main_v5 : FVec F S8x256x96x320 .f32 := broadcastInDim S8x256x96x320 ![] bcast_S_S8x256x96x320 main_cst_0
  let main_v6 : IVec S8x256x96x320 1 := cmpf .olt main_v4 main_v5
  let main_c_1 : IVec S_ 1 := constantI S_ 1 1#1
  let main_v7 : IVec S_ 1 := (fun x v => Host.reduce IntOp.andi x v reducesTo_S8x256x96x320_S_d0_1_2_3 h_S_) main_v6 main_c_1
  let main_v8 : IVec S_ 1 := andi main_v3 main_v7
  main_v8
-- ==== Kernel.lean ====
abbrev S8x256x96x320 : Shape := ⟨4, ![8, 256, 96, 320]⟩
abbrev S_ : Shape := ⟨0, ![]⟩
abbrev S8x256x96x328 : Shape := ⟨4, ![8, 256, 96, 328]⟩
abbrev S8x9x96x320 : Shape := ⟨4, ![8, 9, 96, 320]⟩
abbrev S1x64x96x320 : Shape := ⟨4, ![1, 64, 96, 320]⟩
abbrev S1x64x96x328 : Shape := ⟨4, ![1, 64, 96, 328]⟩
abbrev S1x9x96x320 : Shape := ⟨4, ![1, 9, 96, 320]⟩
abbrev S9x96x320 : Shape := ⟨3, ![9, 96, 320]⟩
abbrev S64x96x320 : Shape := ⟨3, ![64, 96, 320]⟩
abbrev S64x96x328 : Shape := ⟨3, ![64, 96, 328]⟩
abbrev S1x96x320 : Shape := ⟨3, ![1, 96, 320]⟩
abbrev S96x320 : Shape := ⟨2, ![96, 320]⟩

abbrev nBuf : Space → Nat
  | .hbm => 6
  | .vmem => 7
  | .smem => 0
  | _ => 0

abbrev bufTy : (tb : Table) → Fin (tcTables nBuf tb) → BufTy
  | .hbm, ⟨0, _⟩ => ⟨S8x256x96x320, .f32⟩
  | .hbm, ⟨1, _⟩ => ⟨S8x256x96x320, .f32⟩
  | .hbm, ⟨2, _⟩ => ⟨S_, .i32⟩
  | .hbm, ⟨3, _⟩ => ⟨S_, .f32⟩
  | .hbm, ⟨4, _⟩ => ⟨S8x256x96x328, .f32⟩
  | .hbm, ⟨5, _⟩ => ⟨S8x9x96x320, .f32⟩
  | .local _ .vmem, ⟨0, _⟩ => ⟨S1x64x96x320, .f32⟩
  | .local _ .vmem, ⟨1, _⟩ => ⟨S1x64x96x320, .f32⟩
  | .local _ .vmem, ⟨2, _⟩ => ⟨S1x64x96x328, .f32⟩
  | .local _ .vmem, ⟨3, _⟩ => ⟨S1x64x96x328, .f32⟩
  | .local _ .vmem, ⟨4, _⟩ => ⟨S1x9x96x320, .f32⟩
  | .local _ .vmem, ⟨5, _⟩ => ⟨S1x9x96x320, .f32⟩
  | .local _ .vmem, ⟨6, _⟩ => ⟨S9x96x320, .f32⟩
  | _, _ => ⟨S8x256x96x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v88 : BitVec 1 := Scalar.cmpi .eq arg1 c3_i32
  let v89 : BitVec 32 := Scalar.extui v88
  let c0_i32_62 : BitVec 32 := 0#32
  let v90 : BitVec 1 := Scalar.cmpi .ne v89 c0_i32_62
  v90

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x96x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x96x328 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x9x96x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  pads_S8x256x96x320_S8x256x96x328_000_000_000_440 : S8x256x96x320.Pads (![0, 0, 0, 4] : Fin 4 → Nat) ![0, 0, 0, 4] ![0, 0, 0, 0] S8x256x96x328
  h_S_ : 0 < S_.numel
  inb_S9x96x320_S9x96x320_0_0_0 : ∀ a, (![0, 0, 0] : Fin 3 → Nat) a + S9x96x320.size a ≤ S9x96x320.size a
  h_S9x96x320 : 0 < S9x96x320.numel
  shapeCasts_S9x96x320_S9x96x320 : S9x96x320.ShapeCasts S9x96x320
  inb_S1x64x96x320_S1x64x96x320_0_0_0_0 : ∀ a, (![0, 0, 0, 0] : Fin 4 → Nat) a + S1x64x96x320.size a ≤ S1x64x96x320.size a
  h_S1x64x96x320 : 0 < S1x64x96x320.numel
  shapeCasts_S1x64x96x320_S64x96x320 : S1x64x96x320.ShapeCasts S64x96x320
  inb_S1x64x96x328_S1x64x96x328_0_0_0_0 : ∀ a, (![0, 0, 0, 0] : Fin 4 → Nat) a + S1x64x96x328.size a ≤ S1x64x96x328.size a
  h_S1x64x96x328 : 0 < S1x64x96x328.numel
  shapeCasts_S1x64x96x328_S64x96x328 : S1x64x96x328.ShapeCasts S64x96x328
  slices_S64x96x328_o0_0_0_S64x96x320 : S64x96x328.Slices ![0, 0, 0] S64x96x320
  inb_S9x96x320_S1x96x320_0_0_0 : ∀ a, (![0, 0, 0] : Fin 3 → Nat) a + S1x96x320.size a ≤ S9x96x320.size a
  h_S1x96x320 : 0 < S1x96x320.numel
  shapeCasts_S1x96x320_S96x320 : S1x96x320.ShapeCasts S96x320
  reduces_S64x96x320_S96x320 : S64x96x320.Reduces [0] S96x320
  shapeCasts_S96x320_S1x96x320 : S96x320.ShapeCasts S1x96x320
  slices_S64x96x328_o0_0_1_S64x96x320 : S64x96x328.Slices ![0, 0, 1] S64x96x320
  inb_S9x96x320_S1x96x320_1_0_0 : ∀ a, (![1, 0, 0] : Fin 3 → Nat) a + S1x96x320.size a ≤ S9x96x320.size a
  slices_S64x96x328_o0_0_2_S64x96x320 : S64x96x328.Slices ![0, 0, 2] S64x96x320
  inb_S9x96x320_S1x96x320_2_0_0 : ∀ a, (![2, 0, 0] : Fin 3 → Nat) a + S1x96x320.size a ≤ S9x96x320.size a
  slices_S64x96x328_o0_0_3_S64x96x320 : S64x96x328.Slices ![0, 0, 3] S64x96x320
  inb_S9x96x320_S1x96x320_3_0_0 : ∀ a, (![3, 0, 0] : Fin 3 → Nat) a + S1x96x320.size a ≤ S9x96x320.size a
  slices_S64x96x328_o0_0_4_S64x96x320 : S64x96x328.Slices ![0, 0, 4] S64x96x320
  inb_S9x96x320_S1x96x320_4_0_0 : ∀ a, (![4, 0, 0] : Fin 3 → Nat) a + S1x96x320.size a ≤ S9x96x320.size a
  slices_S64x96x328_o0_0_5_S64x96x320 : S64x96x328.Slices ![0, 0, 5] S64x96x320
  inb_S9x96x320_S1x96x320_5_0_0 : ∀ a, (![5, 0, 0] : Fin 3 → Nat) a + S1x96x320.size a ≤ S9x96x320.size a
  slices_S64x96x328_o0_0_6_S64x96x320 : S64x96x328.Slices ![0, 0, 6] S64x96x320
  inb_S9x96x320_S1x96x320_6_0_0 : ∀ a, (![6, 0, 0] : Fin 3 → Nat) a + S1x96x320.size a ≤ S9x96x320.size a
  slices_S64x96x328_o0_0_7_S64x96x320 : S64x96x328.Slices ![0, 0, 7] S64x96x320
  inb_S9x96x320_S1x96x320_7_0_0 : ∀ a, (![7, 0, 0] : Fin 3 → Nat) a + S1x96x320.size a ≤ S9x96x320.size a
  slices_S64x96x328_o0_0_8_S64x96x320 : S64x96x328.Slices ![0, 0, 8] S64x96x320
  inb_S9x96x320_S1x96x320_8_0_0 : ∀ a, (![8, 0, 0] : Fin 3 → Nat) a + S1x96x320.size a ≤ S9x96x320.size a
  inb_S1x9x96x320_S1x9x96x320_0_0_0_0 : ∀ a, (![0, 0, 0, 0] : Fin 4 → Nat) a + S1x9x96x320.size a ≤ S1x9x96x320.size a
  h_S1x9x96x320 : 0 < S1x9x96x320.numel
  shapeCasts_S1x9x96x320_S9x96x320 : S1x9x96x320.ShapeCasts S9x96x320
  shapeCasts_S9x96x320_S1x9x96x320 : S9x96x320.ShapeCasts S1x9x96x320
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x96x320.size a ≤ S8x256x96x320.size a
  hwx0_0 : ∀ i : grid0.Coords, EltTy.bits .f32 = 32 ∨ (Rect.block (s := S8x256x96x320) S1x64x96x320.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x96x328.size a ≤ S8x256x96x328.size a
  hwx0_1 : ∀ i : grid0.Coords, EltTy.bits .f32 = 32 ∨ (Rect.block (s := S8x256x96x328) S1x64x96x328.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x9x96x320.size a ≤ S8x9x96x320.size a
  hwx0_2 : ∀ i : grid0.Coords, EltTy.bits .f32 = 32 ∨ (Rect.block (s := S8x9x96x320) S1x9x96x320.size (cc0_transform_2 i) (hinb0_2 i)).WholeWords (EltTy.packing .f32)

variable [Facts₀]

abbrev win0_0 : Pipeline.Window sig grid0 :=
  Pipeline.Window.ofSpec (Memref.whole main_arg0) S1x64x96x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x96x328.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x9x96x320.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x256x96x320 : Shape := ⟨4, ![8, 256, 96, 320]⟩
abbrev S_ : Shape := ⟨0, ![]⟩
abbrev S8x256x96x328 : Shape := ⟨4, ![8, 256, 96, 328]⟩
abbrev S8x96x320 : Shape := ⟨3, ![8, 96, 320]⟩
abbrev S8x1x96x320 : Shape := ⟨4, ![8, 1, 96, 320]⟩
abbrev S8x9x96x320 : Shape := ⟨4, ![8, 9, 96, 320]⟩

abbrev nBuf : Space → Nat
  | .hbm => 114
  | .vmem => 0
  | .smem => 0
  | _ => 0

abbrev bufTy : (tb : Table) → Fin (tcTables nBuf tb) → BufTy
  | .hbm, ⟨0, _⟩ => ⟨S8x256x96x320, .f32⟩
  | .hbm, ⟨1, _⟩ => ⟨S8x256x96x320, .f32⟩
  | .hbm, ⟨2, _⟩ => ⟨S_, .i32⟩
  | .hbm, ⟨3, _⟩ => ⟨S_, .f32⟩
  | .hbm, ⟨4, _⟩ => ⟨S8x256x96x328, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S8x256x96x320, .f32⟩
  | .hbm, ⟨10, _⟩ => ⟨S8x256x96x320, .f32⟩
  | .hbm, ⟨11, _⟩ => ⟨S_, .f32⟩
  | .hbm, ⟨12, _⟩ => ⟨S8x96x320, .f32⟩
  | .hbm, ⟨13, _⟩ => ⟨S_, .f32⟩
  | .hbm, ⟨14, _⟩ => ⟨S8x96x320, .f32⟩
  | .hbm, ⟨15, _⟩ => ⟨S8x96x320, .f32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S8x256x96x320, .f32⟩
  | .hbm, ⟨21, _⟩ => ⟨S8x256x96x320, .f32⟩
  | .hbm, ⟨22, _⟩ => ⟨S_, .f32⟩
  | .hbm, ⟨23, _⟩ => ⟨S8x96x320, .f32⟩
  | .hbm, ⟨24, _⟩ => ⟨S_, .f32⟩
  | .hbm, ⟨25, _⟩ => ⟨S8x96x320, .f32⟩
  | .hbm, ⟨26, _⟩ => ⟨S8x96x320, .f32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S8x256x96x320, .f32⟩
  | .hbm, ⟨32, _⟩ => ⟨S8x256x96x320, .f32⟩
  | .hbm, ⟨33, _⟩ => ⟨S_, .f32⟩
  | .hbm, ⟨34, _⟩ => ⟨S8x96x320, .f32⟩
  | .hbm, ⟨35, _⟩ => ⟨S_, .f32⟩
  | .hbm, ⟨36, _⟩ => ⟨S8x96x320, .f32⟩
  | .hbm, ⟨37, _⟩ => ⟨S8x96x320, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S8x256x96x320, .f32⟩
  | .hbm, ⟨43, _⟩ => ⟨S8x256x96x320, .f32⟩
  | .hbm, ⟨44, _⟩ => ⟨S_, .f32⟩
  | .hbm, ⟨45, _⟩ => ⟨S8x96x320, .f32⟩
  | .hbm, ⟨46, _⟩ => ⟨S_, .f32⟩
  | .hbm, ⟨47, _⟩ => ⟨S8x96x320, .f32⟩
  | .hbm, ⟨48, _⟩ => ⟨S8x96x320, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S8x256x96x320, .f32⟩
  | .hbm, ⟨54, _⟩ => ⟨S8x256x96x320, .f32⟩
  | .hbm, ⟨55, _⟩ => ⟨S_, .f32⟩
  | .hbm, ⟨56, _⟩ => ⟨S8x96x320, .f32⟩
  | .hbm, ⟨57, _⟩ => ⟨S_, .f32⟩
  | .hbm, ⟨58, _⟩ => ⟨S8x96x320, .f32⟩
  | .hbm, ⟨59, _⟩ => ⟨S8x96x320, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S8x256x96x320, .f32⟩
  | .hbm, ⟨65, _⟩ => ⟨S8x256x96x320, .f32⟩
  | .hbm, ⟨66, _⟩ => ⟨S_, .f32⟩
  | .hbm, ⟨67, _⟩ => ⟨S8x96x320, .f32⟩
  | .hbm, ⟨68, _⟩ => ⟨S_, .f32⟩
  | .hbm, ⟨69, _⟩ => ⟨S8x96x320, .f32⟩
  | .hbm, ⟨70, _⟩ => ⟨S8x96x320, .f32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S8x256x96x320, .f32⟩
  | .hbm, ⟨76, _⟩ => ⟨S8x256x96x320, .f32⟩
  | .hbm, ⟨77, _⟩ => ⟨S_, .f32⟩
  | .hbm, ⟨78, _⟩ => ⟨S8x96x320, .f32⟩
  | .hbm, ⟨79, _⟩ => ⟨S_, .f32⟩
  | .hbm, ⟨80, _⟩ => ⟨S8x96x320, .f32⟩
  | .hbm, ⟨81, _⟩ => ⟨S8x96x320, .f32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S8x256x96x320, .f32⟩
  | .hbm, ⟨87, _⟩ => ⟨S8x256x96x320, .f32⟩
  | .hbm, ⟨88, _⟩ => ⟨S_, .f32⟩
  | .hbm, ⟨89, _⟩ => ⟨S8x96x320, .f32⟩
  | .hbm, ⟨90, _⟩ => ⟨S_, .f32⟩
  | .hbm, ⟨91, _⟩ => ⟨S8x96x320, .f32⟩
  | .hbm, ⟨92, _⟩ => ⟨S8x96x320, .f32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S8x256x96x320, .f32⟩
  | .hbm, ⟨98, _⟩ => ⟨S8x256x96x320, .f32⟩
  | .hbm, ⟨99, _⟩ => ⟨S_, .f32⟩
  | .hbm, ⟨100, _⟩ => ⟨S8x96x320, .f32⟩
  | .hbm, ⟨101, _⟩ => ⟨S_, .f32⟩
  | .hbm, ⟨102, _⟩ => ⟨S8x96x320, .f32⟩
  | .hbm, ⟨103, _⟩ => ⟨S8x96x320, .f32⟩
  | .hbm, ⟨104, _⟩ => ⟨S8x1x96x320, .f32⟩
  | .hbm, ⟨105, _⟩ => ⟨S8x1x96x320, .f32⟩
  | .hbm, ⟨106, _⟩ => ⟨S8x1x96x320, .f32⟩
  | .hbm, ⟨107, _⟩ => ⟨S8x1x96x320, .f32⟩
  | .hbm, ⟨108, _⟩ => ⟨S8x1x96x320, .f32⟩
  | .hbm, ⟨109, _⟩ => ⟨S8x1x96x320, .f32⟩
  | .hbm, ⟨110, _⟩ => ⟨S8x1x96x320, .f32⟩
  | .hbm, ⟨111, _⟩ => ⟨S8x1x96x320, .f32⟩
  | .hbm, ⟨112, _⟩ => ⟨S8x1x96x320, .f32⟩
  | .hbm, ⟨113, _⟩ => ⟨S8x9x96x320, .f32⟩
  | _, _ => ⟨S8x256x96x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_4 : Ref sig .tc := ⟨.hbm, 13, rfl⟩
abbrev main_v4 : Ref sig .tc := ⟨.hbm, 14, rfl⟩
abbrev main_v5 : Ref sig .tc := ⟨.hbm, 15, rfl⟩
abbrev main_c_5 : Ref sig .tc := ⟨.hbm, 16, rfl⟩
abbrev main_c_6 : Ref sig .tc := ⟨.hbm, 17, rfl⟩
abbrev main_c_7 : Ref sig .tc := ⟨.hbm, 18, rfl⟩
abbrev main_c_8 : Ref sig .tc := ⟨.hbm, 19, rfl⟩
abbrev main_v6 : Ref sig .tc := ⟨.hbm, 20, rfl⟩
abbrev main_v7 : Ref sig .tc := ⟨.hbm, 21, rfl⟩
abbrev main_cst_9 : Ref sig .tc := ⟨.hbm, 22, rfl⟩
abbrev main_v8 : Ref sig .tc := ⟨.hbm, 23, rfl⟩
abbrev main_cst_10 : Ref sig .tc := ⟨.hbm, 24, rfl⟩
abbrev main_v9 : Ref sig .tc := ⟨.hbm, 25, rfl⟩
abbrev main_v10 : Ref sig .tc := ⟨.hbm, 26, rfl⟩
abbrev main_c_11 : Ref sig .tc := ⟨.hbm, 27, rfl⟩
abbrev main_c_12 : Ref sig .tc := ⟨.hbm, 28, rfl⟩
abbrev main_c_13 : Ref sig .tc := ⟨.hbm, 29, rfl⟩
abbrev main_c_14 : Ref sig .tc := ⟨.hbm, 30, rfl⟩
abbrev main_v11 : Ref sig .tc := ⟨.hbm, 31, rfl⟩
abbrev main_v12 : Ref sig .tc := ⟨.hbm, 32, rfl⟩
abbrev main_cst_15 : Ref sig .tc := ⟨.hbm, 33, rfl⟩
abbrev main_v13 : Ref sig .tc := ⟨.hbm, 34, rfl⟩
abbrev main_cst_16 : Ref sig .tc := ⟨.hbm, 35, rfl⟩
abbrev main_v14 : Ref sig .tc := ⟨.hbm, 36, rfl⟩
abbrev main_v15 : Ref sig .tc := ⟨.hbm, 37, rfl⟩
abbrev main_c_17 : Ref sig .tc := ⟨.hbm, 38, rfl⟩
abbrev main_c_18 : Ref sig .tc := ⟨.hbm, 39, rfl⟩
abbrev main_c_19 : Ref sig .tc := ⟨.hbm, 40, rfl⟩
abbrev main_c_20 : Ref sig .tc := ⟨.hbm, 41, rfl⟩
abbrev main_v16 : Ref sig .tc := ⟨.hbm, 42, rfl⟩
abbrev main_v17 : Ref sig .tc := ⟨.hbm, 43, rfl⟩
abbrev main_cst_21 : Ref sig .tc := ⟨.hbm, 44, rfl⟩
abbrev main_v18 : Ref sig .tc := ⟨.hbm, 45, rfl⟩
abbrev main_cst_22 : Ref sig .tc := ⟨.hbm, 46, rfl⟩
abbrev main_v19 : Ref sig .tc := ⟨.hbm, 47, rfl⟩
abbrev main_v20 : Ref sig .tc := ⟨.hbm, 48, rfl⟩
abbrev main_c_23 : Ref sig .tc := ⟨.hbm, 49, rfl⟩
abbrev main_c_24 : Ref sig .tc := ⟨.hbm, 50, rfl⟩
abbrev main_c_25 : Ref sig .tc := ⟨.hbm, 51, rfl⟩
abbrev main_c_26 : Ref sig .tc := ⟨.hbm, 52, rfl⟩
abbrev main_v21 : Ref sig .tc := ⟨.hbm, 53, rfl⟩
abbrev main_v22 : Ref sig .tc := ⟨.hbm, 54, rfl⟩
abbrev main_cst_27 : Ref sig .tc := ⟨.hbm, 55, rfl⟩
abbrev main_v23 : Ref sig .tc := ⟨.hbm, 56, rfl⟩
abbrev main_cst_28 : Ref sig .tc := ⟨.hbm, 57, rfl⟩
abbrev main_v24 : Ref sig .tc := ⟨.hbm, 58, rfl⟩
abbrev main_v25 : Ref sig .tc := ⟨.hbm, 59, rfl⟩
abbrev main_c_29 : Ref sig .tc := ⟨.hbm, 60, rfl⟩
abbrev main_c_30 : Ref sig .tc := ⟨.hbm, 61, rfl⟩
abbrev main_c_31 : Ref sig .tc := ⟨.hbm, 62, rfl⟩
abbrev main_c_32 : Ref sig .tc := ⟨.hbm, 63, rfl⟩
abbrev main_v26 : Ref sig .tc := ⟨.hbm, 64, rfl⟩
abbrev main_v27 : Ref sig .tc := ⟨.hbm, 65, rfl⟩
abbrev main_cst_33 : Ref sig .tc := ⟨.hbm, 66, rfl⟩
abbrev main_v28 : Ref sig .tc := ⟨.hbm, 67, rfl⟩
abbrev main_cst_34 : Ref sig .tc := ⟨.hbm, 68, rfl⟩
abbrev main_v29 : Ref sig .tc := ⟨.hbm, 69, rfl⟩
abbrev main_v30 : Ref sig .tc := ⟨.hbm, 70, rfl⟩
abbrev main_c_35 : Ref sig .tc := ⟨.hbm, 71, rfl⟩
abbrev main_c_36 : Ref sig .tc := ⟨.hbm, 72, rfl⟩
abbrev main_c_37 : Ref sig .tc := ⟨.hbm, 73, rfl⟩
abbrev main_c_38 : Ref sig .tc := ⟨.hbm, 74, rfl⟩
abbrev main_v31 : Ref sig .tc := ⟨.hbm, 75, rfl⟩
abbrev main_v32 : Ref sig .tc := ⟨.hbm, 76, rfl⟩
abbrev main_cst_39 : Ref sig .tc := ⟨.hbm, 77, rfl⟩
abbrev main_v33 : Ref sig .tc := ⟨.hbm, 78, rfl⟩
abbrev main_cst_40 : Ref sig .tc := ⟨.hbm, 79, rfl⟩
abbrev main_v34 : Ref sig .tc := ⟨.hbm, 80, rfl⟩
abbrev main_v35 : Ref sig .tc := ⟨.hbm, 81, rfl⟩
abbrev main_c_41 : Ref sig .tc := ⟨.hbm, 82, rfl⟩
abbrev main_c_42 : Ref sig .tc := ⟨.hbm, 83, rfl⟩
abbrev main_c_43 : Ref sig .tc := ⟨.hbm, 84, rfl⟩
abbrev main_c_44 : Ref sig .tc := ⟨.hbm, 85, rfl⟩
abbrev main_v36 : Ref sig .tc := ⟨.hbm, 86, rfl⟩
abbrev main_v37 : Ref sig .tc := ⟨.hbm, 87, rfl⟩
abbrev main_cst_45 : Ref sig .tc := ⟨.hbm, 88, rfl⟩
abbrev main_v38 : Ref sig .tc := ⟨.hbm, 89, rfl⟩
abbrev main_cst_46 : Ref sig .tc := ⟨.hbm, 90, rfl⟩
abbrev main_v39 : Ref sig .tc := ⟨.hbm, 91, rfl⟩
abbrev main_v40 : Ref sig .tc := ⟨.hbm, 92, rfl⟩
abbrev main_c_47 : Ref sig .tc := ⟨.hbm, 93, rfl⟩
abbrev main_c_48 : Ref sig .tc := ⟨.hbm, 94, rfl⟩
abbrev main_c_49 : Ref sig .tc := ⟨.hbm, 95, rfl⟩
abbrev main_c_50 : Ref sig .tc := ⟨.hbm, 96, rfl⟩
abbrev main_v41 : Ref sig .tc := ⟨.hbm, 97, rfl⟩
abbrev main_v42 : Ref sig .tc := ⟨.hbm, 98, rfl⟩
abbrev main_cst_51 : Ref sig .tc := ⟨.hbm, 99, rfl⟩
abbrev main_v43 : Ref sig .tc := ⟨.hbm, 100, rfl⟩
abbrev main_cst_52 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩

abbrev nD : Nat := 1
abbrev τ : Topo := Topo.v7x

variable {F : FTy → Type} [FloatOps F]

class Facts₀ : Prop where
  pads_S8x256x96x320_S8x256x96x328_000_000_000_440 : S8x256x96x320.Pads (![0, 0, 0, 4] : Fin 4 → Nat) ![0, 0, 0, 4] ![0, 0, 0, 0] S8x256x96x328
  h_S_ : 0 < S_.numel
  sliceFits_S8x256x96x328_S8x256x96x320 : S8x256x96x328.Slices (fun _ => 0) S8x256x96x320
  reducesTo_S8x256x96x320_S8x96x320_d1 : S8x256x96x320.ReducesTo [1] S8x96x320
  bcast_S_S8x96x320 : S_.BroadcastsInDim S8x96x320 (![] : Fin 0 → Fin S8x96x320.rank)
  bcast_S8x96x320_S8x1x96x320_0_2_3 : S8x96x320.BroadcastsInDim S8x1x96x320 (![0, 2, 3] : Fin 3 → Fin S8x1x96x320.rank)
  concatenates_S8x1x96x320_S8x1x96x320_S8x1x96x320_S8x1x96x320_S8x1x96x320_S8x1x96x320_S8x1x96x320_S8x1x96x320_S8x1x96x320_S8x9x96x320_d1 : Shape.Concatenates [S8x1x96x320, S8x1x96x320, S8x1x96x320, S8x1x96x320, S8x1x96x320, S8x1x96x320, S8x1x96x320, S8x1x96x320, S8x1x96x320] S8x9x96x320 1

variable [Facts₀]

class Facts : Prop extends Facts₀ where

variable [Facts]
-- ==== Proof.LibFamilyResult.lean ====
/-
  Operations over a LITERAL FAMILY of references, read operand by operand.

  The general statements about an operation over a family of operands read operand k at the k-th entry of the family
  under a binder, where the entry is no literal reference, so nothing more can be computed about it. Spelt out entry by
  entry, each operand's contents can be computed in turn. Two cases: an operation over nine operands (a join of nine
  pieces), and an operation with four index operands (a slice at four start indices). They are the nine- and
  four-entry cases of the four-operand statement the library has for a join. Last, the join of nine pieces as a function
  of its pieces alone, so that the pieces can be computed one at a time.
-/
import Idealize.ShloMosaic.Lib.StableHlo.Run

noncomputable section

namespace Cert.LibFamilyResult

open Idealize.ShloMosaic Idealize.ShloMosaic.StableHlo Idealize.SL.Sem

variable {τ : Topo} {sig : RefSig} {Val : EltTy → Type}
variable {x0 x1 x2 x3 x4 x5 x6 x7 x8 y a i0 i1 i2 i3 : Ref sig .tc}

/-- The result of a nine-operand operation at its own result reference, operand by operand. -/
theorem nary9_result
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [nary_result]; congr 1; funext k; fin_cases k <;> rfl

/-- The same with the result reference left out of the rewriting index, for use by one simplification pass. -/
theorem nary9_result'
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) :=
  nary9_result f hxs hy F

/-- The result of an operation with four index operands at its own result reference, index operand by index operand. -/
theorem unaryIndexed4_result (T : BufTy)
    (f : a.ty.Contents Val → (Fin 4 → T.Contents Val) → y.ty.Contents Val) (hT ha hix hy) (F : Valuation τ sig Val) :
    (unaryIndexed (τ := τ) a ![i0, i1, i2, i3] T y f hT ha hix hy).result F (Proc.devRef .tc y)
      = f (F (Proc.devRef .tc a))
          ![cast (congrArg (fun U : BufTy => U.Contents Val) (hT 0)) (F (Proc.devRef .tc i0)),
            cast (congrArg (fun U : BufTy => U.Contents Val) (hT 1)) (F (Proc.devRef .tc i1)),
            cast (congrArg (fun U : BufTy => U.Contents Val) (hT 2)) (F (Proc.devRef .tc i2)),
            cast (congrArg (fun U : BufTy => U.Contents Val) (hT 3)) (F (Proc.devRef .tc i3))] := by
  rw [unaryIndexed_result]; congr 1; funext k; fin_cases k <;> rfl

theorem unaryIndexed4_result' (T : BufTy)
    (f : a.ty.Contents Val → (Fin 4 → T.Contents Val) → y.ty.Contents Val) (hT ha hix hy) (F : Valuation τ sig Val) :
    (unaryIndexed (τ := τ) a ![i0, i1, i2, i3] T y f hT ha hix hy).result F (no_index (Proc.devRef .tc y))
      = f (F (Proc.devRef .tc a))
          ![cast (congrArg (fun U : BufTy => U.Contents Val) (hT 0)) (F (Proc.devRef .tc i0)),
            cast (congrArg (fun U : BufTy => U.Contents Val) (hT 1)) (F (Proc.devRef .tc i1)),
            cast (congrArg (fun U : BufTy => U.Contents Val) (hT 2)) (F (Proc.devRef .tc i2)),
            cast (congrArg (fun U : BufTy => U.Contents Val) (hT 3)) (F (Proc.devRef .tc i3))] :=
  unaryIndexed4_result T f hT ha hix hy F

/-- A join of nine pieces of one shape depends on the pieces only: equal pieces, equal joins. -/
theorem concatenate_congr9 {α : Type} {t s : Shape} (ax : Fin t.rank)
    (p0 p1 p2 p3 p4 p5 p6 p7 p8 q0 q1 q2 q3 q4 q5 q6 q7 q8 : s.Idx → α)
    (h : Shape.Concatenates (([⟨s, p0⟩, ⟨s, p1⟩, ⟨s, p2⟩, ⟨s, p3⟩, ⟨s, p4⟩, ⟨s, p5⟩, ⟨s, p6⟩, ⟨s, p7⟩, ⟨s, p8⟩] :
      List ((s : Shape) × (s.Idx → α))).map (·.1)) t ax)
    (e0 : p0 = q0) (e1 : p1 = q1) (e2 : p2 = q2) (e3 : p3 = q3) (e4 : p4 = q4) (e5 : p5 = q5) (e6 : p6 = q6)
    (e7 : p7 = q7) (e8 : p8 = q8) :
    concatenate t ax [⟨s, p0⟩, ⟨s, p1⟩, ⟨s, p2⟩, ⟨s, p3⟩, ⟨s, p4⟩, ⟨s, p5⟩, ⟨s, p6⟩, ⟨s, p7⟩, ⟨s, p8⟩] h
      = concatenate t ax [⟨s, q0⟩, ⟨s, q1⟩, ⟨s, q2⟩, ⟨s, q3⟩, ⟨s, q4⟩, ⟨s, q5⟩, ⟨s, q6⟩, ⟨s, q7⟩, ⟨s, q8⟩] h := by
  subst e0 e1 e2 e3 e4 e5 e6 e7 e8
  rfl

end Cert.LibFamilyResult

end
-- ==== Proof.CostVolume.lean ====
/-
  The cost volume as one function of the two feature arrays.

  For a batch entry b, a displacement r in 0..8, a row h and a column w, the cost is the channel mean of the
  products of the first feature map at (b, c, h, w) with the second one, padded by four zero columns on each side
  of the width axis, at (b, c, h, w + r):

      cost (b, r, h, w)  =  (sum over the 256 channels c of  x (b, c, h, w) * p (b, c, h, w + r)) * (1 / 256).

  It is stated over the padded array p (width 328), so that neither side ever looks inside the padding: the two
  programs pad with the same operation. Everything is over the extended reals, where addition is commutative and
  associative on all values (so the channel sum may be taken in any grouping) and dividing by the real 256 is
  multiplying by its reciprocal.
-/
import Idealize.ShloMosaic.PureOps.Ideal
import Idealize.ShloMosaic.Lib.ValueIdx

noncomputable section

open scoped BigOperators

namespace Cert.CostVolume

open Idealize.ShloMosaic Idealize.ShloMosaic.ValueIdx

/-- The feature maps, the padded second map, one displacement's plane and the cost volume. -/
abbrev Feat : Shape := ⟨4, ![8, 256, 96, 320]⟩
abbrev PFeat : Shape := ⟨4, ![8, 256, 96, 328]⟩
abbrev Plane : Shape := ⟨3, ![8, 96, 320]⟩
abbrev Vol : Shape := ⟨4, ![8, 9, 96, 320]⟩

/-- Column w moved right by a displacement of at most 8 stays inside the padded width 328. -/
abbrev colAt (w : Fin 320) (r : ℕ) (hr : r ≤ 8) : Fin 328 := ⟨w.val + r, by have := w.isLt; omega⟩

/-- The correlation of the two maps over ALL 256 channels at one output position. -/
def corr (x : Feat.Idx → EReal) (p : PFeat.Idx → EReal) (b : Fin 8) (r : ℕ) (hr : r ≤ 8) (h : Fin 96) (w : Fin 320) :
    EReal :=
  ∑ c : Fin 256, x (ix4 b c h w) * p (ix4 b c h (colAt w r hr))

/-- The cost volume: the channel MEAN of the products, the mean taken as the product with 1/256. -/
def cost (x : Feat.Idx → EReal) (p : PFeat.Idx → EReal) : Vol.Idx → EReal :=
  fun j => corr x p (j 0) (j 1).val (Nat.le_of_lt_succ (j 1).isLt) (j 2) (j 3) * (((1 / 256 : ℝ) : ℝ) : EReal)

end Cert.CostVolume

end
-- ==== Proof.RowStep.lean ====
/-
  One row of the accumulator, one channel block, read at a position.

  The kernel keeps nine accumulator rows, one per displacement r in 0..8. At every grid point it adds to row r,
  position (h, w), the sum over the 64 channels k of the block of

      a (k, h, w) * p (k, h, w + r),

  where a is the block of the first feature map and p the block of the padded second one (width 328): the
  displacement is a slice of p starting at column r. The lane sum over the leading axis is, over the extended
  reals, the plain finite sum; the casts between a [1, 96, 320] row and a [96, 320] value keep the position.
-/
import Idealize.ShloMosaic.PureOps.Ideal.Laws
import Idealize.ShloMosaic.Lib.ValueIdx
import Idealize.ShloMosaic.Lib.Pipeline.Value
import proofs.«120714_j82008105550452_1_alg».proof.Proof.CostVolume

noncomputable section

open scoped BigOperators

namespace Cert.CostVolume

open Idealize.ShloMosaic Idealize.ShloMosaic.ValueIdx

/-- A channel block of the first map, of the padded second map, one accumulator row, and a row without its unit axis. -/
abbrev Blk : Shape := ⟨3, ![64, 96, 320]⟩
abbrev PBlk : Shape := ⟨3, ![64, 96, 328]⟩
abbrev Row1 : Shape := ⟨3, ![1, 96, 320]⟩
abbrev Row : Shape := ⟨2, ![96, 320]⟩

/-- The sum, over the 64 channels of a block, of the products at displacement r. -/
def blockCorr (a : Blk.Idx → EReal) (p : PBlk.Idx → EReal) (r : ℕ) (hr : r ≤ 8) (h : Fin 96) (w : Fin 320) : EReal :=
  ∑ k : Fin 64, a (ix3 k h w) * p (ix3 k h (colAt w r hr))

/-- The products of the block with the slice of the padded block at column offset r, lane-summed over the
    channel axis, read at (h, w): the block's correlation at displacement r. -/
theorem laneSum_apply (r : ℕ) (hr : r ≤ 8) (a : FVec Ideal Blk .f32) (p : FVec Ideal PBlk .f32)
    (hs : PBlk.Slices ![0, 0, r] Blk) (hred : Blk.Reduces [0] Row) (hφ : FKind.Formats .f32)
    (hacc : (0x00000000#32 : BitVec 32) = FKind.add.neutral .f32 hφ) (h : Fin 96) (w : Fin 320) :
    multiReduction .add [0] Row (mulf a (extractStridedSlice Blk ![0, 0, r] p hs)) 0x00000000#32 hred hφ hacc (ix2 h w)
      = blockCorr a p r hr h w := by
  rw [Ideal.multiReduction_add_single]
  unfold blockCorr
  refine Finset.sum_congr rfl fun (k : Fin 64) _ => ?_
  have e : hred.lift (ix2 h w) k = ix3 k h w := by
    funext d; apply Fin.ext
    match d with
    | ⟨0, _⟩ => rfl
    | ⟨1, _⟩ => rfl
    | ⟨2, _⟩ => rfl
  rw [e]
  show a (ix3 k h w) * extractStridedSlice Blk ![0, 0, r] p hs (ix3 k h w) = _
  congr 1
  refine extractStridedSlice_apply ![0, 0, r] p hs (ix3 k h w) (ix3 k h (colAt w r hr)) fun d => ?_
  match d with
  | ⟨0, _⟩ => show k.val = 0 + k.val; omega
  | ⟨1, _⟩ => show h.val = 0 + h.val; omega
  | ⟨2, _⟩ => show w.val + r = r + w.val; omega

/-- THE ROW STEP: the old row (a [1, 96, 320] value) plus the lane sum, stored back as a [1, 96, 320] value, holds
    at (0, h, w) the old entry plus the block's correlation at displacement r. -/
theorem rowStep_apply (r : ℕ) (hr : r ≤ 8) (a : FVec Ideal Blk .f32) (p : FVec Ideal PBlk .f32) (old : FVec Ideal Row1 .f32)
    (hs : PBlk.Slices ![0, 0, r] Blk) (hred : Blk.Reduces [0] Row) (hφ : FKind.Formats .f32)
    (hacc : (0x00000000#32 : BitVec 32) = FKind.add.neutral .f32 hφ)
    (hdrop : Row1.ShapeCasts Row) (hadd : Row.ShapeCasts Row1) (h : Fin 96) (w : Fin 320) :
    shapeCast Row1 (addf (shapeCast Row old hdrop)
        (multiReduction .add [0] Row (mulf a (extractStridedSlice Blk ![0, 0, r] p hs)) 0x00000000#32 hred hφ hacc)) hadd
      (ix3 0 h w)
      = old (ix3 0 h w) + blockCorr a p r hr h w := by
  rw [shapeCast_addUnit_apply ![96, 320]]
  have e1 : (fun a : Fin 2 => (ix3 (0 : Fin 1) h w : Row1.Idx) a.succ) = ix2 h w := by
    funext d; match d with
    | ⟨0, _⟩ => rfl
    | ⟨1, _⟩ => rfl
  rw [e1, addf_apply, laneSum_apply r hr, shapeCast_dropUnit_apply ![96, 320]]
  congr 2
  funext d; match d with
  | ⟨0, _⟩ => rfl
  | ⟨1, _⟩ => rfl
  | ⟨2, _⟩ => rfl

end Cert.CostVolume

end
-- ==== Proof.Rows.lean ====
/-
  The nine accumulator rows of one grid point.

  Every grid point adds, to each of the nine rows r of the accumulator, the correlation at displacement r of the
  point's two channel blocks. This module reads each row's stored value at a position: the old row entry plus the sum
  over the block's 64 channels of the products. The blocks arrive with a leading unit axis ([1, 64, 96, 320] and
  [1, 64, 96, 328]); dropping it keeps the position.
-/
import proofs.«120714_j82008105550452_1_alg».proof.Proof.Gen.KernelIdeal.Skeleton
import proofs.«120714_j82008105550452_1_alg».proof.Proof.RowStep

noncomputable section

open scoped BigOperators

namespace Cert.KernelIdeal.Rows

open Idealize.ShloMosaic Idealize.ShloMosaic.ValueIdx Cert.KernelIdeal Cert.KernelIdeal.Gen Cert.CostVolume

/-- A point's block of the first map without its unit axis, read at (k, h, w): the block at (0, k, h, w). -/
theorem pay3_apply (X0 : Vec Ideal S1x64x96x320 .f32) (k : Fin 64) (h : Fin 96) (w : Fin 320) :
    k0_pay3 (F := Ideal) X0 (ix3 k h w) = X0 (ix4 0 k h w) := by
  unfold k0_pay3
  refine (shapeCast_dropUnit_apply ![64, 96, 320] X0 _ (ix3 k h w)).trans (congrArg X0 ?_)
  funext d; match d with
  | ⟨0, _⟩ => rfl
  | ⟨1, _⟩ => rfl
  | ⟨2, _⟩ => rfl
  | ⟨3, _⟩ => rfl

/-- The same for the padded block of the second map. -/
theorem pay4_apply (X1 : Vec Ideal S1x64x96x328 .f32) (k : Fin 64) (h : Fin 96) (w : Fin 328) :
    k0_pay4 (F := Ideal) X1 (ix3 k h w) = X1 (ix4 0 k h w) := by
  unfold k0_pay4
  refine (shapeCast_dropUnit_apply ![64, 96, 328] X1 _ (ix3 k h w)).trans (congrArg X1 ?_)
  funext d; match d with
  | ⟨0, _⟩ => rfl
  | ⟨1, _⟩ => rfl
  | ⟨2, _⟩ => rfl
  | ⟨3, _⟩ => rfl

/-- The correlation of a point's two blocks (with their unit axes) at displacement r. -/
def pointCorr (X0 : Vec Ideal S1x64x96x320 .f32) (X1 : Vec Ideal S1x64x96x328 .f32) (r : ℕ) (hr : r ≤ 8)
    (h : Fin 96) (w : Fin 320) : EReal :=
  ∑ k : Fin 64, X0 (ix4 0 k h w) * X1 (ix4 0 k h (colAt w r hr))

theorem blockCorr_pay (X0 : Vec Ideal S1x64x96x320 .f32) (X1 : Vec Ideal S1x64x96x328 .f32) (r : ℕ) (hr : r ≤ 8)
    (h : Fin 96) (w : Fin 320) :
    blockCorr (k0_pay3 (F := Ideal) X0) (k0_pay4 (F := Ideal) X1) r hr h w = pointCorr X0 X1 r hr h w := by
  unfold blockCorr pointCorr
  exact Finset.sum_congr rfl fun k _ => by rw [pay3_apply, pay4_apply]

/-! Row by row: what each row's store holds at (0, h, w). -/

theorem row0 (X0 : Vec Ideal S1x64x96x320 .f32) (X1 : Vec Ideal S1x64x96x328 .f32) (old : Vec Ideal S1x96x320 .f32)
    (h : Fin 96) (w : Fin 320) :
    k0_pay5 (F := Ideal) X0 X1 old (ix3 0 h w) = old (ix3 0 h w) + pointCorr X0 X1 0 (by omega) h w := by
  rw [← blockCorr_pay]; unfold k0_pay5
  exact rowStep_apply 0 (by omega) _ _ old _ _ _ _ _ _ h w

theorem row1 (X0 : Vec Ideal S1x64x96x320 .f32) (X1 : Vec Ideal S1x64x96x328 .f32) (old : Vec Ideal S1x96x320 .f32)
    (h : Fin 96) (w : Fin 320) :
    k0_pay6 (F := Ideal) X0 X1 old (ix3 0 h w) = old (ix3 0 h w) + pointCorr X0 X1 1 (by omega) h w := by
  rw [← blockCorr_pay]; unfold k0_pay6
  exact rowStep_apply 1 (by omega) _ _ old _ _ _ _ _ _ h w

theorem row2 (X0 : Vec Ideal S1x64x96x320 .f32) (X1 : Vec Ideal S1x64x96x328 .f32) (old : Vec Ideal S1x96x320 .f32)
    (h : Fin 96) (w : Fin 320) :
    k0_pay9 (F := Ideal) (k0_pay3 X0) (k0_pay7 X1) (k0_pay8 old) (ix3 0 h w)
      = old (ix3 0 h w) + pointCorr X0 X1 2 (by omega) h w := by
  rw [← blockCorr_pay]; unfold k0_pay9 k0_pay7 k0_pay8
  exact rowStep_apply 2 (by omega) _ _ old _ _ _ _ _ _ h w

theorem row3 (X0 : Vec Ideal S1x64x96x320 .f32) (X1 : Vec Ideal S1x64x96x328 .f32) (old : Vec Ideal S1x96x320 .f32)
    (h : Fin 96) (w : Fin 320) :
    k0_pay10 (F := Ideal) (k0_pay3 X0) (k0_pay4 X1) old (ix3 0 h w)
      = old (ix3 0 h w) + pointCorr X0 X1 3 (by omega) h w := by
  rw [← blockCorr_pay]; unfold k0_pay10
  exact rowStep_apply 3 (by omega) _ _ old _ _ _ _ _ _ h w

theorem row4 (X0 : Vec Ideal S1x64x96x320 .f32) (X1 : Vec Ideal S1x64x96x328 .f32) (old : Vec Ideal S1x96x320 .f32)
    (h : Fin 96) (w : Fin 320) :
    k0_pay11 (F := Ideal) (k0_pay3 X0) (k0_pay4 X1) old (ix3 0 h w)
      = old (ix3 0 h w) + pointCorr X0 X1 4 (by omega) h w := by
  rw [← blockCorr_pay]; unfold k0_pay11
  exact rowStep_apply 4 (by omega) _ _ old _ _ _ _ _ _ h w

theorem row5 (X0 : Vec Ideal S1x64x96x320 .f32) (X1 : Vec Ideal S1x64x96x328 .f32) (old : Vec Ideal S1x96x320 .f32)
    (h : Fin 96) (w : Fin 320) :
    k0_pay13 (F := Ideal) (k0_pay12 (k0_pay3 X0) (k0_pay4 X1) old) (ix3 0 h w)
      = old (ix3 0 h w) + pointCorr X0 X1 5 (by omega) h w := by
  rw [← blockCorr_pay]; unfold k0_pay13 k0_pay12
  exact rowStep_apply 5 (by omega) _ _ old _ _ _ _ _ _ h w

theorem row6 (X0 : Vec Ideal S1x64x96x320 .f32) (X1 : Vec Ideal S1x64x96x328 .f32) (old : Vec Ideal S1x96x320 .f32)
    (h : Fin 96) (w : Fin 320) :
    k0_pay14 (F := Ideal) (k0_pay3 X0) (k0_pay4 X1) old (ix3 0 h w)
      = old (ix3 0 h w) + pointCorr X0 X1 6 (by omega) h w := by
  rw [← blockCorr_pay]; unfold k0_pay14
  exact rowStep_apply 6 (by omega) _ _ old _ _ _ _ _ _ h w

theorem row7 (X0 : Vec Ideal S1x64x96x320 .f32) (X1 : Vec Ideal S1x64x96x328 .f32) (old : Vec Ideal S1x96x320 .f32)
    (h : Fin 96) (w : Fin 320) :
    k0_pay15 (F := Ideal) (k0_pay3 X0) (k0_pay4 X1) old (ix3 0 h w)
      = old (ix3 0 h w) + pointCorr X0 X1 7 (by omega) h w := by
  rw [← blockCorr_pay]; unfold k0_pay15
  exact rowStep_apply 7 (by omega) _ _ old _ _ _ _ _ _ h w

theorem row8 (X0 : Vec Ideal S1x64x96x320 .f32) (X1 : Vec Ideal S1x64x96x328 .f32) (old : Vec Ideal S1x96x320 .f32)
    (h : Fin 96) (w : Fin 320) :
    k0_pay16 (F := Ideal) (k0_pay3 X0) (k0_pay4 X1) old (ix3 0 h w)
      = old (ix3 0 h w) + pointCorr X0 X1 8 (by omega) h w := by
  rw [← blockCorr_pay]; unfold k0_pay16
  exact rowStep_apply 8 (by omega) _ _ old _ _ _ _ _ _ h w

end Cert.KernelIdeal.Rows

end
-- ==== Proof.Pieces.lean ====
/-
  The nine row stores of one grid point as one list, and what they leave.

  A grid point stores the nine accumulator rows one after the other, row r holding the old row plus the point's
  correlation at displacement r. Whatever was stored before them (the reset's zeros, at a first point), the
  accumulator then holds, at every position (r, h, w), the old entry plus that correlation: each of the nine
  stores is the block of this one function that its row names, and the nine rows cover the accumulator.
-/
import proofs.«120714_j82008105550452_1_alg».proof.Proof.Rows
import Idealize.ShloMosaic.Lib.Pipeline.CanonAppend
import Idealize.ShloMosaic.Lib.Ring
import Idealize.ShloMosaic.Lib.Tactic

set_option maxRecDepth 16384

noncomputable section

open scoped BigOperators

namespace Cert.KernelIdeal.Rows

open Idealize.ShloMosaic Idealize.ShloMosaic.ValueIdx Idealize.ShloMosaic.Tactic Cert.KernelIdeal Cert.KernelIdeal.Gen Cert.CostVolume

variable (X0 : Vec Ideal S1x64x96x320 .f32) (X1 : Vec Ideal S1x64x96x328 .f32) (old : Vec Ideal S9x96x320 .f32)

/-- The accumulator after the point's nine row stores, over the contents `old`: every entry (r, h, w) has gained the
    point's correlation at displacement r. -/
def stepped : S9x96x320.Idx → EReal :=
  fun y => old y + pointCorr X0 X1 (y 0).val (Nat.le_of_lt_succ (y 0).isLt) (y 1) (y 2)

/-- Row r of the accumulator read through the row's rectangle: position (0, h, w) of the row is (r, h, w). -/
theorem ld_row (r : ℕ) (hr : r ≤ 8) (inb : ∀ a, (![r, 0, 0] : Fin 3 → ℕ) a + S1x96x320.size a ≤ S9x96x320.size a)
    (h : Fin 96) (w : Fin 320) :
    View.ld old (Rect.unit (s := S9x96x320) ![r, 0, 0] S1x96x320.size inb) (ix3 0 h w)
      = old (ix3 (⟨r, by omega⟩ : Fin 9) h w) := by
  show old _ = old _
  congr 1
  funext d; apply Fin.ext
  match d with
  | ⟨0, _⟩ => show r + 1 * 0 = r; omega
  | ⟨1, _⟩ => show 0 + 1 * h.val = h.val; omega
  | ⟨2, _⟩ => show 0 + 1 * w.val = w.val; omega

/-- A store through row r's rectangle whose value at (0, h, w) is the old entry plus the correlation at r is the
    block of `stepped` that the row names. -/
theorem piece_agree (r : ℕ) (hr : r ≤ 8) (inb : ∀ a, (![r, 0, 0] : Fin 3 → ℕ) a + S1x96x320.size a ≤ S9x96x320.size a)
    (f : S1x96x320.Idx → EReal)
    (hf : ∀ (h : Fin 96) (w : Fin 320), f (ix3 0 h w) = old (ix3 (⟨r, by omega⟩ : Fin 9) h w) + pointCorr X0 X1 r hr h w)
    (x : S1x96x320.Idx) :
    f x = stepped X0 X1 old ((Rect.unit (s := S9x96x320) ![r, 0, 0] S1x96x320.size inb).emb x) := by
  obtain ⟨z, h, w, rfl⟩ : ∃ (z : Fin 1) (h : Fin 96) (w : Fin 320), x = ix3 z h w := ⟨x 0, x 1, x 2, eq_ix3 x⟩
  obtain rfl : z = 0 := Subsingleton.elim _ _
  have e : (Rect.unit (s := S9x96x320) ![r, 0, 0] S1x96x320.size inb).emb (ix3 (0 : Fin 1) h w)
      = ix3 (⟨r, by omega⟩ : Fin 9) h w := by
    funext d; apply Fin.ext
    match d with
    | ⟨0, _⟩ => show r + 1 * 0 = r; omega
    | ⟨1, _⟩ => show 0 + 1 * h.val = h.val; omega
    | ⟨2, _⟩ => show 0 + 1 * w.val = w.val; omega
  rw [hf, e]
  rfl

/-- The point's nine row stores over the contents `old`, last made first. -/
def rowPieces : List (View.Piece (Elt Ideal) S9x96x320 .f32) :=
  [
    ⟨Rect.unit (s := S9x96x320) ![8, 0, 0] S1x96x320.size inb_S9x96x320_S1x96x320_8_0_0,
      k0_pay16 (F := Ideal) (k0_pay3 X0) (k0_pay4 X1) (View.ld old (Rect.unit (s := S9x96x320) ![8, 0, 0] S1x96x320.size inb_S9x96x320_S1x96x320_8_0_0))⟩,
    ⟨Rect.unit (s := S9x96x320) ![7, 0, 0] S1x96x320.size inb_S9x96x320_S1x96x320_7_0_0,
      k0_pay15 (F := Ideal) (k0_pay3 X0) (k0_pay4 X1) (View.ld old (Rect.unit (s := S9x96x320) ![7, 0, 0] S1x96x320.size inb_S9x96x320_S1x96x320_7_0_0))⟩,
    ⟨Rect.unit (s := S9x96x320) ![6, 0, 0] S1x96x320.size inb_S9x96x320_S1x96x320_6_0_0,
      k0_pay14 (F := Ideal) (k0_pay3 X0) (k0_pay4 X1) (View.ld old (Rect.unit (s := S9x96x320) ![6, 0, 0] S1x96x320.size inb_S9x96x320_S1x96x320_6_0_0))⟩,
    ⟨Rect.unit (s := S9x96x320) ![5, 0, 0] S1x96x320.size inb_S9x96x320_S1x96x320_5_0_0,
      k0_pay13 (F := Ideal) (k0_pay12 (k0_pay3 X0) (k0_pay4 X1) (View.ld old (Rect.unit (s := S9x96x320) ![5, 0, 0] S1x96x320.size inb_S9x96x320_S1x96x320_5_0_0)))⟩,
    ⟨Rect.unit (s := S9x96x320) ![4, 0, 0] S1x96x320.size inb_S9x96x320_S1x96x320_4_0_0,
      k0_pay11 (F := Ideal) (k0_pay3 X0) (k0_pay4 X1) (View.ld old (Rect.unit (s := S9x96x320) ![4, 0, 0] S1x96x320.size inb_S9x96x320_S1x96x320_4_0_0))⟩,
    ⟨Rect.unit (s := S9x96x320) ![3, 0, 0] S1x96x320.size inb_S9x96x320_S1x96x320_3_0_0,
      k0_pay10 (F := Ideal) (k0_pay3 X0) (k0_pay4 X1) (View.ld old (Rect.unit (s := S9x96x320) ![3, 0, 0] S1x96x320.size inb_S9x96x320_S1x96x320_3_0_0))⟩,
    ⟨Rect.unit (s := S9x96x320) ![2, 0, 0] S1x96x320.size inb_S9x96x320_S1x96x320_2_0_0,
      k0_pay9 (F := Ideal) (k0_pay3 X0) (k0_pay7 X1) (k0_pay8 (View.ld old (Rect.unit (s := S9x96x320) ![2, 0, 0] S1x96x320.size inb_S9x96x320_S1x96x320_2_0_0)))⟩,
    ⟨Rect.unit (s := S9x96x320) ![1, 0, 0] S1x96x320.size inb_S9x96x320_S1x96x320_1_0_0,
      k0_pay6 (F := Ideal) X0 X1 (View.ld old (Rect.unit (s := S9x96x320) ![1, 0, 0] S1x96x320.size inb_S9x96x320_S1x96x320_1_0_0))⟩,
    ⟨Rect.unit (s := S9x96x320) ![0, 0, 0] S1x96x320.size inb_S9x96x320_S1x96x320_0_0_0,
      k0_pay5 (F := Ideal) X0 X1 (View.ld old (Rect.unit (s := S9x96x320) ![0, 0, 0] S1x96x320.size inb_S9x96x320_S1x96x320_0_0_0))⟩ ]

/-- Each of the nine is its row's block of `stepped`. -/
theorem rowPieces_agree : ∀ p ∈ rowPieces X0 X1 old, ∀ x : p.1.shape.Idx, p.2 x = stepped X0 X1 old (p.1.emb x) := by
  intro p hp
  simp only [rowPieces, List.mem_cons, List.not_mem_nil, or_false] at hp
  rcases hp with rfl | rfl | rfl | rfl | rfl | rfl | rfl | rfl | rfl
  · exact piece_agree X0 X1 old 8 (by omega) inb_S9x96x320_S1x96x320_8_0_0 _ fun h w =>
      (row8 X0 X1 _ h w).trans (by rw [ld_row old 8 (by omega) inb_S9x96x320_S1x96x320_8_0_0])
  · exact piece_agree X0 X1 old 7 (by omega) inb_S9x96x320_S1x96x320_7_0_0 _ fun h w =>
      (row7 X0 X1 _ h w).trans (by rw [ld_row old 7 (by omega) inb_S9x96x320_S1x96x320_7_0_0])
  · exact piece_agree X0 X1 old 6 (by omega) inb_S9x96x320_S1x96x320_6_0_0 _ fun h w =>
      (row6 X0 X1 _ h w).trans (by rw [ld_row old 6 (by omega) inb_S9x96x320_S1x96x320_6_0_0])
  · exact piece_agree X0 X1 old 5 (by omega) inb_S9x96x320_S1x96x320_5_0_0 _ fun h w =>
      (row5 X0 X1 _ h w).trans (by rw [ld_row old 5 (by omega) inb_S9x96x320_S1x96x320_5_0_0])
  · exact piece_agree X0 X1 old 4 (by omega) inb_S9x96x320_S1x96x320_4_0_0 _ fun h w =>
      (row4 X0 X1 _ h w).trans (by rw [ld_row old 4 (by omega) inb_S9x96x320_S1x96x320_4_0_0])
  · exact piece_agree X0 X1 old 3 (by omega) inb_S9x96x320_S1x96x320_3_0_0 _ fun h w =>
      (row3 X0 X1 _ h w).trans (by rw [ld_row old 3 (by omega) inb_S9x96x320_S1x96x320_3_0_0])
  · exact piece_agree X0 X1 old 2 (by omega) inb_S9x96x320_S1x96x320_2_0_0 _ fun h w =>
      (row2 X0 X1 _ h w).trans (by rw [ld_row old 2 (by omega) inb_S9x96x320_S1x96x320_2_0_0])
  · exact piece_agree X0 X1 old 1 (by omega) inb_S9x96x320_S1x96x320_1_0_0 _ fun h w =>
      (row1 X0 X1 _ h w).trans (by rw [ld_row old 1 (by omega) inb_S9x96x320_S1x96x320_1_0_0])
  · exact piece_agree X0 X1 old 0 (by omega) inb_S9x96x320_S1x96x320_0_0_0 _ fun h w =>
      (row0 X0 X1 _ h w).trans (by rw [ld_row old 0 (by omega) inb_S9x96x320_S1x96x320_0_0_0])

/-- The nine rows cover the accumulator. -/
theorem rowPieces_cover (y : S9x96x320.Idx) : ∃ p ∈ rowPieces X0 X1 old, y ∈ p.1.set :=
  View.cover_of_tiledL (rowPieces X0 X1 old) S1x96x320.size (by unfold rowPieces; sl_kernel_rfl) y

/-- So after them — whatever stores came before — the accumulator holds `stepped`. -/
theorem canon_rowPieces_append (L' : List (View.Piece (Elt Ideal) S9x96x320 .f32)) :
    View.canon (rowPieces X0 X1 old ++ L') = stepped X0 X1 old :=
  funext fun y => View.canon_append_of_pieces (stepped X0 X1 old) L' (rowPieces X0 X1 old)
    (rowPieces_agree X0 X1 old) y (rowPieces_cover X0 X1 old y)

theorem canon_rowPieces : View.canon (rowPieces X0 X1 old) = stepped X0 X1 old := by
  have h := canon_rowPieces_append X0 X1 old []
  rwa [List.append_nil] at h

end Cert.KernelIdeal.Rows

end
-- ==== Proof.Cases.lean ====
/-
  The three kinds of grid point, read as values.

  A middle point adds its correlations to the accumulator the point before left. A last point of a batch entry does
  the same and then writes out the whole accumulator times 1/256. A first point of a batch entry first stores zeros
  over the whole accumulator, and every row it then reads back is a row of those zeros, so it leaves the zeros plus
  its correlations.
-/
import proofs.«120714_j82008105550452_1_alg».proof.Proof.Gen.KernelIdeal.Frame
import proofs.«120714_j82008105550452_1_alg».proof.Proof.Pieces
import Idealize.ShloMosaic.Lib.Pipeline.Value
import Idealize.ShloMosaic.Lib.Tactic

set_option maxRecDepth 16384

noncomputable section

open scoped BigOperators

namespace Cert.KernelIdeal.Rows

open Idealize.ShloMosaic Idealize.ShloMosaic.TcCoe Idealize.ShloMosaic.ValueIdx Idealize.ShloMosaic.Tactic Idealize.SL.Sem
open Cert.KernelIdeal Cert.KernelIdeal.Gen Cert.CostVolume

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A MIDDLE point leaves, over the accumulator `xs0` of the point before, `xs0` plus its correlations. -/
theorem sout_B_eq (c : Dev nD) (i : grid0.Coords) (arg2 : Memref sig .tc .vmem S1x64x96x320 .f32) (harg2 : arg2.IsWhole) (arg3 : Memref sig .tc .vmem S1x64x96x328 .f32) (harg3 : arg3.IsWhole) (arg4 : Memref sig .tc .vmem S1x9x96x320 .f32) (harg4 : arg4.IsWhole) (arg5 : Memref sig .tc .vmem S9x96x320 .f32) (harg5 : arg5.IsWhole) (hc0 : ¬cond0_0 i) (hc1 : ¬cond0_1 i)
    (x0 : Vec Ideal S1x64x96x320 .f32) (x1 : Vec Ideal S1x64x96x328 .f32) (xs0 : Vec Ideal S9x96x320 .f32) :
    sout0_B_0 (F := Ideal) c i arg2 harg2 arg3 harg3 arg4 harg4 arg5 harg5 hc0 hc1 x0 x1 xs0 = stepped x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  simp only [View.readAt_eq_ld, harg2.read_unread, harg3.read_unread, harg5.read_unread,
    View.ld_unit_zero (S := S1x64x96x320) hz4, View.ld_unit_zero (S := S1x64x96x328) hz4]
  exact canon_rowPieces x0 x1 xs0

/-- A LAST point leaves the same in the accumulator, -/
theorem sout_C_eq (c : Dev nD) (i : grid0.Coords) (arg2 : Memref sig .tc .vmem S1x64x96x320 .f32) (harg2 : arg2.IsWhole) (arg3 : Memref sig .tc .vmem S1x64x96x328 .f32) (harg3 : arg3.IsWhole) (arg4 : Memref sig .tc .vmem S1x9x96x320 .f32) (harg4 : arg4.IsWhole) (arg5 : Memref sig .tc .vmem S9x96x320 .f32) (harg5 : arg5.IsWhole) (hc0 : ¬cond0_0 i) (hc1 : cond0_1 i)
    (x0 : Vec Ideal S1x64x96x320 .f32) (x1 : Vec Ideal S1x64x96x328 .f32) (xs0 : Vec Ideal S9x96x320 .f32) :
    sout0_C_0 (F := Ideal) c i arg2 harg2 arg3 harg3 arg4 harg4 arg5 harg5 hc0 hc1 x0 x1 xs0 = stepped x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  simp only [View.readAt_eq_ld, harg2.read_unread, harg3.read_unread, harg5.read_unread,
    View.ld_unit_zero (S := S1x64x96x320) hz4, View.ld_unit_zero (S := S1x64x96x328) hz4]
  exact canon_rowPieces x0 x1 xs0

/-- and writes out that accumulator, scaled. -/
theorem out_C_eq (c : Dev nD) (i : grid0.Coords) (arg2 : Memref sig .tc .vmem S1x64x96x320 .f32) (harg2 : arg2.IsWhole) (arg3 : Memref sig .tc .vmem S1x64x96x328 .f32) (harg3 : arg3.IsWhole) (arg4 : Memref sig .tc .vmem S1x9x96x320 .f32) (harg4 : arg4.IsWhole) (arg5 : Memref sig .tc .vmem S9x96x320 .f32) (harg5 : arg5.IsWhole) (hc0 : ¬cond0_0 i) (hc1 : cond0_1 i)
    (x0 : Vec Ideal S1x64x96x320 .f32) (x1 : Vec Ideal S1x64x96x328 .f32) (xs0 : Vec Ideal S9x96x320 .f32) :
    out0_C_2 (F := Ideal) c i arg2 harg2 arg3 harg3 arg4 harg4 arg5 harg5 hc0 hc1 x0 x1 xs0 = k0_pay1 (F := Ideal) (stepped x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz4]
  simp only [View.readAt_eq_ld, harg2.read_unread, harg3.read_unread, harg5.read_unread,
    View.ld_unit_zero (S := S1x64x96x320) hz4, View.ld_unit_zero (S := S1x64x96x328) hz4]
  show k0_pay1 (F := Ideal) (arg5.view.readCov (rowPieces x0 x1 xs0)
    (Rect.unit (s := S9x96x320) ![0, 0, 0] S9x96x320.size inb_S9x96x320_S9x96x320_0_0_0).toLoadRect) = _
  rw [View.readCov_eq_canon_ld _ _ _ (rowPieces_cover x0 x1 xs0), canon_rowPieces, View.ld_unit_zero (S := S9x96x320) hz3]

/-! A first point. -/

/-- A load of row r right after stores of OTHER rows reads what was there before them. -/
theorem readCov_skip (v : View sig .tc .vmem S9x96x320 .f32) (k r : ℕ) (hkr : k ≠ r)
    (inbk : ∀ a, (![k, 0, 0] : Fin 3 → ℕ) a + (![1, 96, 320] : Fin 3 → ℕ) a ≤ S9x96x320.size a)
    (inbr : ∀ a, (![r, 0, 0] : Fin 3 → ℕ) a + (![1, 96, 320] : Fin 3 → ℕ) a ≤ S9x96x320.size a)
    (w : (Rect.unit (s := S9x96x320) ![k, 0, 0] ![1, 96, 320] inbk).shape.Idx → Elt Ideal .f32)
    (L : List (View.Piece (Elt Ideal) S9x96x320 .f32)) :
    v.readCov (⟨Rect.unit (s := S9x96x320) ![k, 0, 0] ![1, 96, 320] inbk, w⟩ :: L)
        (Rect.unit (s := S9x96x320) ![r, 0, 0] ![1, 96, 320] inbr).toLoadRect
      = v.readCov L (Rect.unit (s := S9x96x320) ![r, 0, 0] ![1, 96, 320] inbr).toLoadRect :=
  View.readCov_cons_of_disjoint v _ L _
    (Rect.unit_disjoint (inb := inbk) (inb' := inbr) (0 : Fin 3) (by show k + 1 ≤ r ∨ r + 1 ≤ k; omega))

/-- A load of row r right after a store of the WHOLE accumulator reads row r of what was stored. -/
theorem readCov_whole (v : View sig .tc .vmem S9x96x320 .f32) (r : ℕ)
    (inb0 : ∀ a, (![0, 0, 0] : Fin 3 → ℕ) a + (![9, 96, 320] : Fin 3 → ℕ) a ≤ S9x96x320.size a)
    (inbr : ∀ a, (![r, 0, 0] : Fin 3 → ℕ) a + (![1, 96, 320] : Fin 3 → ℕ) a ≤ S9x96x320.size a)
    (z : S9x96x320.Idx → Elt Ideal .f32) :
    v.readCov [(⟨Rect.unit (s := S9x96x320) ![0, 0, 0] ![9, 96, 320] inb0, z⟩ : View.Piece (Elt Ideal) S9x96x320 .f32)]
        (Rect.unit (s := S9x96x320) ![r, 0, 0] ![1, 96, 320] inbr).toLoadRect
      = View.ld z (Rect.unit (s := S9x96x320) ![r, 0, 0] ![1, 96, 320] inbr) := by
  funext j
  rw [View.readCov_eq_canon']
  exact congrFun (View.canon_unit_zero (S := S9x96x320) hz3 inb0 z) _

/-- A FIRST point leaves the zeros it stored plus its correlations. -/
theorem sout_A_eq (c : Dev nD) (i : grid0.Coords) (arg2 : Memref sig .tc .vmem S1x64x96x320 .f32) (harg2 : arg2.IsWhole) (arg3 : Memref sig .tc .vmem S1x64x96x328 .f32) (harg3 : arg3.IsWhole) (arg4 : Memref sig .tc .vmem S1x9x96x320 .f32) (harg4 : arg4.IsWhole) (arg5 : Memref sig .tc .vmem S9x96x320 .f32) (harg5 : arg5.IsWhole) (hc0 : cond0_0 i) (hc1 : ¬cond0_1 i)
    (x0 : Vec Ideal S1x64x96x320 .f32) (x1 : Vec Ideal S1x64x96x328 .f32) :
    sout0_A_0 (F := Ideal) c i arg2 harg2 arg3 harg3 arg4 harg4 arg5 harg5 hc0 hc1 x0 x1 = stepped x0 x1 (k0_pay2 (F := Ideal)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  simp only [readCov_skip _ 0 1 (by decide), readCov_skip _ 0 2 (by decide), readCov_skip _ 1 2 (by decide), readCov_skip _ 0 3 (by decide),
    readCov_skip _ 1 3 (by decide), readCov_skip _ 2 3 (by decide), readCov_skip _ 0 4 (by decide), readCov_skip _ 1 4 (by decide),
    readCov_skip _ 2 4 (by decide), readCov_skip _ 3 4 (by decide), readCov_skip _ 0 5 (by decide), readCov_skip _ 1 5 (by decide),
    readCov_skip _ 2 5 (by decide), readCov_skip _ 3 5 (by decide), readCov_skip _ 4 5 (by decide), readCov_skip _ 0 6 (by decide),
    readCov_skip _ 1 6 (by decide), readCov_skip _ 2 6 (by decide), readCov_skip _ 3 6 (by decide), readCov_skip _ 4 6 (by decide),
    readCov_skip _ 5 6 (by decide), readCov_skip _ 0 7 (by decide), readCov_skip _ 1 7 (by decide), readCov_skip _ 2 7 (by decide),
    readCov_skip _ 3 7 (by decide), readCov_skip _ 4 7 (by decide), readCov_skip _ 5 7 (by decide), readCov_skip _ 6 7 (by decide),
    readCov_skip _ 0 8 (by decide), readCov_skip _ 1 8 (by decide), readCov_skip _ 2 8 (by decide), readCov_skip _ 3 8 (by decide),
    readCov_skip _ 4 8 (by decide), readCov_skip _ 5 8 (by decide), readCov_skip _ 6 8 (by decide), readCov_skip _ 7 8 (by decide)
    ,
    readCov_whole, View.readAt_eq_ld, harg2.read_unread, harg3.read_unread,
    View.ld_unit_zero (S := S1x64x96x320) hz4, View.ld_unit_zero (S := S1x64x96x328) hz4]
  exact canon_rowPieces_append x0 x1 (k0_pay2 (F := Ideal))
    [⟨Rect.unit (s := S9x96x320) ![0, 0, 0] S9x96x320.size inb_S9x96x320_S9x96x320_0_0_0, k0_pay2 (F := Ideal)⟩]

end Cert.KernelIdeal.Rows

end
-- ==== Proof.LibBlockSum.lean ====
/-
  A sum over n * b consecutive indices is the sum of n consecutive runs of b of them: the law that joins a contraction
  accumulated block by block along the contracted axis with the same contraction done at once. It holds in any
  commutative additive monoid (so on the extended reals with no finiteness assumed), for any number n of blocks and
  any block length b. Three forms: over initial segments of the naturals, over the finite index types with a function
  of the natural position, and for a function of the n * b positions themselves.
-/
import Mathlib.Algebra.BigOperators.Fin
import Mathlib.Algebra.BigOperators.Intervals

open scoped BigOperators

namespace Cert.LibBlockSum

variable {M : Type*} [AddCommMonoid M]

/-- A sum over the first `n * b` naturals, cut into `n` consecutive runs of `b`: run `s` holds the positions
    `b * s + x` for `x < b`. -/
theorem sum_range_mul (g : ℕ → M) (n b : ℕ) :
    ∑ k ∈ Finset.range (n * b), g k = ∑ s ∈ Finset.range n, ∑ x ∈ Finset.range b, g (b * s + x) := by
  induction n with
  | zero => simp
  | succ n ih => rw [Nat.succ_mul, Finset.sum_range_add, ih, Finset.sum_range_succ, Nat.mul_comm b n]

/-- The same with the positions and the positions inside a run as finite types. -/
theorem sum_fin_mul (g : ℕ → M) (n b : ℕ) :
    ∑ k : Fin (n * b), g k.val = ∑ s ∈ Finset.range n, ∑ x : Fin b, g (b * s + x.val) := by
  rw [Fin.sum_univ_eq_sum_range (fun k => g k) (n * b), sum_range_mul]
  exact Finset.sum_congr rfl fun s _ => (Fin.sum_univ_eq_sum_range (fun x => g (b * s + x)) b).symm

/-- The same for a function of the `N = n * b` positions themselves: run `s`'s position `x` is position `b * s + x`
    (the guard is true on every term: `s < n` and `x < b`). -/
theorem sum_fin_blocks {N : ℕ} (n b : ℕ) (hN : N = n * b) (f : Fin N → M) :
    ∑ k, f k = ∑ s ∈ Finset.range n, ∑ x : Fin b, (if h : b * s + x.val < N then f ⟨b * s + x.val, h⟩ else 0) := by
  subst hN
  have e := sum_fin_mul (fun k => if h : k < n * b then f ⟨k, h⟩ else 0) n b
  simp only [Fin.is_lt, dite_true, Fin.eta] at e
  exact e

end Cert.LibBlockSum
-- ==== Proof.Consts.lean ====
/-
  The two float constants the programs spell, as the reals their bit patterns denote: 256 (the reference's divisor)
  and 1/256 (the kernel's scale), both exact binary fractions.
-/
import Idealize.ShloMosaic.PureOps.Ideal

noncomputable section

namespace Cert.CostVolume

open Idealize.ShloMosaic

/-- The pattern of 256.0 denotes the real 256. -/
theorem ofBits_256 : Ideal.ofBits .f32 0x43800000#32 = ((256 : ℝ) : EReal) := by
  simp [Ideal.ofBits, Ideal.ieee, -EReal.coe_mul]; norm_num

/-- The pattern of 0.00390625 denotes the real 1/256. -/
theorem ofBits_inv256 : Ideal.ofBits .f32 0x3B800000#32 = ((1 / 256 : ℝ) : EReal) := by
  simp [Ideal.ofBits, Ideal.ieee, -EReal.coe_mul]; norm_num

end Cert.CostVolume

end
-- ==== Proof.KernelValue.lean ====
/-
  What the kernel's result array holds.

  The grid has 32 points: point t works on batch entry t / 4 and on the channels 64 * (t % 4) .. 64 * (t % 4) + 63.
  The accumulator is reset at the first of the four points of a batch entry, so after point t it holds, at (r, h, w),
  the sum over the points 4 * (t / 4) .. t of their correlations at displacement r. At the fourth point that is the
  sum over all 256 channels, taken as four runs of 64, and the point writes it, times 1/256, into block t / 4 of the
  result: the cost volume of the first argument and the padded second one. The eight written blocks cover the result.
-/
import proofs.«120714_j82008105550452_1_alg».proof.Proof.Gen.KernelIdeal.Value
import proofs.«120714_j82008105550452_1_alg».proof.Proof.Cases
import proofs.«120714_j82008105550452_1_alg».proof.Proof.LibBlockSum
import proofs.«120714_j82008105550452_1_alg».proof.Proof.Consts
import Idealize.ShloMosaic.Lib.Pipeline.Value
import Idealize.ShloMosaic.Lib.StableHlo.Run

set_option maxRecDepth 16384

noncomputable section

open scoped BigOperators

namespace Cert.KernelIdeal.CostValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Rows Cert.CostVolume

variable (m : (ℓ : Loc nD τ sig) → Buf (Elt Ideal) ℓ) (ρ : Dev nD → PrngReg)

/-- The two arrays the kernel reads, as the region finds them, and a point's blocks of them. -/
abbrev xarr (c : Dev nD) : Vec Ideal S8x256x96x320 .f32 := V m c main_arg0
abbrev parr (c : Dev nD) : Vec Ideal S8x256x96x328 .f32 := V m c main_v0
abbrev xblk (c : Dev nD) (t : Fin cfg0.N) : Vec Ideal S1x64x96x320 .f32 := iblk m c 0 t
abbrev pblk (c : Dev nD) (t : Fin cfg0.N) : Vec Ideal S1x64x96x328 .f32 := iblk m c 1 t

/-- Where the blocks sit: point t reads batch entry t / 4, channel block t % 4, and writes batch entry t / 4. -/
theorem idx_facts : ∀ t : Fin cfg0.N,
    win0_0.index t (0 : Fin 4) = t.val / 4 ∧ win0_0.index t (1 : Fin 4) = t.val % 4
    ∧ win0_0.index t (2 : Fin 4) = 0 ∧ win0_0.index t (3 : Fin 4) = 0
    ∧ win0_1.index t (0 : Fin 4) = t.val / 4 ∧ win0_1.index t (1 : Fin 4) = t.val % 4
    ∧ win0_1.index t (2 : Fin 4) = 0 ∧ win0_1.index t (3 : Fin 4) = 0
    ∧ win0_2.index t (0 : Fin 4) = t.val / 4 ∧ win0_2.index t (1 : Fin 4) = 0
    ∧ win0_2.index t (2 : Fin 4) = 0 ∧ win0_2.index t (3 : Fin 4) = 0 :=
  (by decide +kernel : ∀ t : Fin grid0.N, _)

/-- A point's block of the first map, read at (0, k, h, w): the map at (t / 4, 64 * (t % 4) + k, h, w). -/
theorem xblk_apply (c : Dev nD) (t : Fin cfg0.N) (k : Fin 64) (h : Fin 96) (w : Fin 320) (b' : Fin 8) (c' : Fin 256)
    (hb : b'.val = t.val / 4) (hc : c'.val = 64 * (t.val % 4) + k.val) :
    xblk m c t (ix4 0 k h w) = xarr m c (ix4 b' c' h w) := by
  obtain ⟨e0, e1, e2, e3, -⟩ := idx_facts t
  show V m c main_arg0 (((cfg0.win 0).blk t).view.emb (ix4 0 k h w)) = V m c main_arg0 _
  congr 1
  funext a; apply Fin.ext
  match a with
  | ⟨0, _⟩ => show win0_0.index t (0 : Fin 4) * 1 + 1 * 0 = b'.val; omega
  | ⟨1, _⟩ => show win0_0.index t (1 : Fin 4) * 64 + 1 * k.val = c'.val; omega
  | ⟨2, _⟩ => show win0_0.index t (2 : Fin 4) * 96 + 1 * h.val = h.val; omega
  | ⟨3, _⟩ => show win0_0.index t (3 : Fin 4) * 320 + 1 * w.val = w.val; omega

/-- The same for the padded second map. -/
theorem pblk_apply (c : Dev nD) (t : Fin cfg0.N) (k : Fin 64) (h : Fin 96) (w : Fin 328) (b' : Fin 8) (c' : Fin 256)
    (hb : b'.val = t.val / 4) (hc : c'.val = 64 * (t.val % 4) + k.val) :
    pblk m c t (ix4 0 k h w) = parr m c (ix4 b' c' h w) := by
  obtain ⟨-, -, -, -, e0, e1, e2, e3, -⟩ := idx_facts t
  show V m c main_v0 (((cfg0.win 1).blk t).view.emb (ix4 0 k h w)) = V m c main_v0 _
  congr 1
  funext a; apply Fin.ext
  match a with
  | ⟨0, _⟩ => show win0_1.index t (0 : Fin 4) * 1 + 1 * 0 = b'.val; omega
  | ⟨1, _⟩ => show win0_1.index t (1 : Fin 4) * 64 + 1 * k.val = c'.val; omega
  | ⟨2, _⟩ => show win0_1.index t (2 : Fin 4) * 96 + 1 * h.val = h.val; omega
  | ⟨3, _⟩ => show win0_1.index t (3 : Fin 4) * 328 + 1 * w.val = w.val; omega

/-! ## The accumulator after each point -/

/-- What point n adds to the accumulator (nothing past the grid: never used there). -/
def addend (c : Dev nD) (n : ℕ) : S9x96x320.Idx → EReal := fun y =>
  if h : n < cfg0.N then
    pointCorr (xblk m c ⟨n, h⟩) (pblk m c ⟨n, h⟩) (y 0).val (Nat.le_of_lt_succ (y 0).isLt) (y 1) (y 2)
  else 0

/-- The accumulator after point t: the zeros of the batch entry's reset plus what its points up to t added. -/
theorem scratch_fold (c : Dev nD) (t : Fin cfg0.N) (y : S9x96x320.Idx) :
    (outsAt0 m c t.val t.isLt).2 y
      = k0_pay2 (F := Ideal) y + ∑ s ∈ Finset.range (t.val % 4 + 1), addend m c (4 * (t.val / 4) + s) y := by
  have hN : t.val < 32 := lt_of_lt_of_eq t.isLt N_0
  rw [Value.soutsAt0_0_eq m c t]
  refine Pipeline.accAt_add_apply _ _ (k0_pay2 (F := Ideal)) (addend m c) (4 * (t.val / 4)) 3 ?ha ?hg (t.val % 4)
    (by omega) _ y
  case ha =>
    intro h i
    have h0 : (4 * (t.val / 4)) % 4 = 0 := by omega
    have h1 : ¬(4 * (t.val / 4)) % 4 = 3 := by omega
    show Value.scAt0_0 m c (4 * (t.val / 4)) h _ i = _
    unfold Value.scAt0_0
    rw [dif_pos h0, dif_neg h1]
    refine (congrFun (sout_A_eq c (grid0.coords ⟨_, h⟩) (ms0_0 ⟨_, h⟩) (hs0_0 ⟨_, h⟩) (ms0_1 ⟨_, h⟩) (hs0_1 ⟨_, h⟩)
      (ms0_2 ⟨_, h⟩) (hs0_2 ⟨_, h⟩) scM0_0 (Memref.isWhole_whole _) _ _ (xblk m c ⟨_, h⟩) (pblk m c ⟨_, h⟩)) i).trans ?_
    unfold stepped addend
    rw [dif_pos h]
  case hg =>
    intro n h acc i h1 h2
    have h0 : ¬n % 4 = 0 := by omega
    unfold Value.scAt0_0
    rw [dif_neg h0]
    by_cases h3 : n % 4 = 3
    · rw [dif_pos h3]
      refine (congrFun (sout_C_eq c (grid0.coords ⟨n, h⟩) (ms0_0 ⟨n, h⟩) (hs0_0 ⟨n, h⟩) (ms0_1 ⟨n, h⟩) (hs0_1 ⟨n, h⟩)
        (ms0_2 ⟨n, h⟩) (hs0_2 ⟨n, h⟩) scM0_0 (Memref.isWhole_whole _) _ _ (xblk m c ⟨n, h⟩) (pblk m c ⟨n, h⟩) acc) i).trans ?_
      unfold stepped addend
      rw [dif_pos h]
    · rw [dif_neg h3]
      refine (congrFun (sout_B_eq c (grid0.coords ⟨n, h⟩) (ms0_0 ⟨n, h⟩) (hs0_0 ⟨n, h⟩) (ms0_1 ⟨n, h⟩) (hs0_1 ⟨n, h⟩)
        (ms0_2 ⟨n, h⟩) (hs0_2 ⟨n, h⟩) scM0_0 (Memref.isWhole_whole _) _ _ (xblk m c ⟨n, h⟩) (pblk m c ⟨n, h⟩) acc) i).trans ?_
      unfold stepped addend
      rw [dif_pos h]

/-- The reset stores zeros. -/
theorem pay2_apply (y : S9x96x320.Idx) : k0_pay2 (F := Ideal) y = 0 := by
  unfold k0_pay2
  rw [shapeCast_self]
  exact Ideal.ofBits_zero_f32

/-- What point n = 4 * b + s adds at (r, h, w): the products over channel run s of batch entry b. -/
theorem addend_apply (c : Dev nD) (b : Fin 8) (s : ℕ) (hs : s < 4) (r : Fin 9) (h : Fin 96) (w : Fin 320) :
    addend m c (4 * b.val + s) (ix3 r h w)
      = ∑ k : Fin 64, (if hk : 64 * s + k.val < 256 then
          xarr m c (ix4 b ⟨64 * s + k.val, hk⟩ h w)
            * parr m c (ix4 b ⟨64 * s + k.val, hk⟩ h (colAt w r.val (Nat.le_of_lt_succ r.isLt)))
        else 0) := by
  have hn : 4 * b.val + s < cfg0.N := by rw [show cfg0.N = 32 from N_0]; have := b.isLt; omega
  unfold addend
  rw [dif_pos hn]
  unfold pointCorr
  refine Finset.sum_congr rfl fun (k : Fin 64) _ => ?_
  have hk : 64 * s + k.val < 256 := by have := k.isLt; omega
  rw [dif_pos hk]
  rw [xblk_apply m c ⟨4 * b.val + s, hn⟩ k h w b ⟨64 * s + k.val, hk⟩ (by show b.val = (4 * b.val + s) / 4; omega)
      (by show 64 * s + k.val = 64 * ((4 * b.val + s) % 4) + k.val; omega),
    pblk_apply m c ⟨4 * b.val + s, hn⟩ k h _ b ⟨64 * s + k.val, hk⟩ (by show b.val = (4 * b.val + s) / 4; omega)
      (by show 64 * s + k.val = 64 * ((4 * b.val + s) % 4) + k.val; omega)]

/-- After the FOURTH point of batch entry b the accumulator holds the correlations over all 256 channels. -/
theorem scratch_total (c : Dev nD) (t : Fin cfg0.N) (h3 : t.val % 4 = 3) (b : Fin 8) (hb : b.val = t.val / 4)
    (r : Fin 9) (h : Fin 96) (w : Fin 320) :
    (outsAt0 m c t.val t.isLt).2 (ix3 r h w)
      = corr (xarr m c) (parr m c) b r.val (Nat.le_of_lt_succ r.isLt) h w := by
  rw [scratch_fold, pay2_apply, zero_add, h3, ← hb]
  unfold corr
  rw [Cert.LibBlockSum.sum_fin_blocks 4 64 rfl]
  refine Finset.sum_congr rfl fun s hs => ?_
  exact addend_apply m c b s (Finset.mem_range.mp hs) r h w

/-! ## What the fourth point writes, and the result array -/

/-- The written value: the accumulator with a unit axis, times the constant 1/256. -/
theorem pay1_apply (v : Vec Ideal S9x96x320 .f32) (r : Fin 9) (h : Fin 96) (w : Fin 320) :
    k0_pay1 (F := Ideal) v (ix4 0 r h w) = v (ix3 r h w) * ((1 / 256 : ℝ) : EReal) := by
  unfold k0_pay1
  rw [shapeCast_addUnit_apply ![9, 96, 320]]
  have e : (fun a : Fin 3 => (ix4 (0 : Fin 1) r h w : S1x9x96x320.Idx) a.succ) = ix3 r h w := by
    funext d; match d with
    | ⟨0, _⟩ => rfl
    | ⟨1, _⟩ => rfl
    | ⟨2, _⟩ => rfl
  rw [e]
  show v (ix3 r h w) * Ideal.ofBits .f32 0x3B800000#32 = _
  rw [ofBits_inv256]

/-- WHAT A WRITING POINT WRITES BACK is its block of the cost volume. -/
theorem flushed_eq (c : Dev nD) (t : Fin cfg0.N) (hf : (cfg0.win 2).flush t = true) :
    (dats m 0 c).flushed 2 t = ((cfg0.win 2).blk t).view.read (Elt Ideal) (cost (xarr m c) (parr m c)) := by
  have h3 : t.val % 4 = 3 := (flush0_2 t).mp hf
  have h0 : ¬t.val % 4 = 0 := by omega
  have hN : t.val < 32 := lt_of_lt_of_eq t.isLt N_0
  obtain ⟨-, -, -, -, -, -, -, -, e0, e1, e2, e3⟩ := idx_facts t
  have hlt : t.val - 1 < cfg0.N := Nat.lt_of_le_of_lt (Nat.sub_le _ _) t.isLt
  -- the accumulator after this point is what the point's stores left over the point before
  have hacc : (outsAt0 m c t.val t.isLt).2
      = stepped (xblk m c t) (pblk m c t) (outsAt0 m c (t.val - 1) hlt).2 := by
    rw [outsAt0_C m c t h0 h3]
    dsimp only
    exact sout_C_eq c (grid0.coords t) (ms0_0 t) (hs0_0 t) (ms0_1 t) (hs0_1 t) (ms0_2 t) (hs0_2 t) scM0_0
      (Memref.isWhole_whole _) (fun hh => h0 ((hcond0_0 t).mp hh)) ((hcond0_1 t).mpr h3) (xblk m c t) (pblk m c t)
      (outsAt0 m c (t.val - 1) hlt).2
  -- and what it writes out is that accumulator, scaled
  have hout := out_C_eq c (grid0.coords t) (ms0_0 t) (hs0_0 t) (ms0_1 t) (hs0_1 t) (ms0_2 t) (hs0_2 t) scM0_0
    (Memref.isWhole_whole _) (fun hh => h0 ((hcond0_0 t).mp hh)) ((hcond0_1 t).mpr h3) (xblk m c t) (pblk m c t)
    (outsAt0 m c (t.val - 1) hlt).2
  rw [← hacc] at hout
  rw [Value.flushed2_C m c t h0 h3]
  funext j
  obtain ⟨z, r, h, w, rfl⟩ : ∃ (z : Fin 1) (r : Fin 9) (h : Fin 96) (w : Fin 320), j = ix4 z r h w :=
    ⟨j 0, j 1, j 2, j 3, eq_ix4 j⟩
  obtain rfl : z = 0 := Subsingleton.elim _ _
  have hemb : ((cfg0.win 2).blk t).view.emb (ix4 (0 : Fin 1) r h w)
      = (ix4 (⟨t.val / 4, by omega⟩ : Fin 8) r h w : S8x9x96x320.Idx) := by
    funext a; apply Fin.ext
    match a with
    | ⟨0, _⟩ => show win0_2.index t (0 : Fin 4) * 1 + 1 * 0 = t.val / 4; omega
    | ⟨1, _⟩ => show win0_2.index t (1 : Fin 4) * 9 + 1 * r.val = r.val; omega
    | ⟨2, _⟩ => show win0_2.index t (2 : Fin 4) * 96 + 1 * h.val = h.val; omega
    | ⟨3, _⟩ => show win0_2.index t (3 : Fin 4) * 320 + 1 * w.val = w.val; omega
  show out0_C_2 c (grid0.coords t) (ms0_0 t) (hs0_0 t) (ms0_1 t) (hs0_1 t) (ms0_2 t) (hs0_2 t) scM0_0
      (Memref.isWhole_whole _) (fun hh => h0 ((hcond0_0 t).mp hh)) ((hcond0_1 t).mpr h3) (xblk m c t) (pblk m c t)
      (outsAt0 m c (t.val - 1) hlt).2 (ix4 (0 : Fin 1) r h w)
    = cost (xarr m c) (parr m c) (((cfg0.win 2).blk t).view.emb (ix4 (0 : Fin 1) r h w))
  rw [hout, hemb, pay1_apply, scratch_total m c t h3 ⟨t.val / 4, by omega⟩ rfl r h w]
  rfl

/-- An index of the result is in point t's block iff each coordinate is in the block's range on its axis. -/
theorem mem_blk (t : Fin cfg0.N) (i : S8x9x96x320.Idx) :
    i ∈ ((cfg0.win 2).blk t).view.set ↔ ∀ a : Fin 4, win0_2.index t a * S1x9x96x320.size a ≤ (i a).val
      ∧ (i a).val < win0_2.index t a * S1x9x96x320.size a + S1x9x96x320.size a := by
  show i ∈ ((View.whole main_v1).slice (win0_2.rect t)).set ↔ _
  rw [View.set_slice_whole, Rect.mem_set_unit]
  exact Iff.rfl

/-- Every index of the result lies in the block the fourth point of its batch entry writes. -/
theorem cover (i : S8x9x96x320.Idx) :
    ∃ t : Fin cfg0.N, (cfg0.win 2).flush t = true ∧ i ∈ ((cfg0.win 2).blk t).view.set := by
  have hi0 : (i 0).val < 8 := (i 0).isLt
  have hi1 : (i 1).val < 9 := (i 1).isLt
  have hi2 : (i 2).val < 96 := (i 2).isLt
  have hi3 : (i 3).val < 320 := (i 3).isLt
  have hn : 4 * (i 0).val + 3 < cfg0.N := by rw [show cfg0.N = 32 from N_0]; omega
  refine ⟨⟨4 * (i 0).val + 3, hn⟩, (flush0_2 _).mpr (by show (4 * (i 0).val + 3) % 4 = 3; omega), ?_⟩
  obtain ⟨-, -, -, -, -, -, -, -, e0, e1, e2, e3⟩ := idx_facts ⟨4 * (i 0).val + 3, hn⟩
  have e0' : win0_2.index ⟨4 * (i 0).val + 3, hn⟩ (0 : Fin 4) = (i 0).val := by
    rw [e0]; show (4 * (i 0).val + 3) / 4 = (i 0).val; omega
  rw [mem_blk]
  intro a
  match a with
  | ⟨0, _⟩ => show win0_2.index ⟨4 * (i 0).val + 3, hn⟩ (0 : Fin 4) * 1 ≤ (i 0).val ∧ (i 0).val < win0_2.index ⟨4 * (i 0).val + 3, hn⟩ (0 : Fin 4) * 1 + 1; omega
  | ⟨1, _⟩ => show win0_2.index ⟨4 * (i 0).val + 3, hn⟩ (1 : Fin 4) * 9 ≤ (i 1).val ∧ (i 1).val < win0_2.index ⟨4 * (i 0).val + 3, hn⟩ (1 : Fin 4) * 9 + 9; omega
  | ⟨2, _⟩ => show win0_2.index ⟨4 * (i 0).val + 3, hn⟩ (2 : Fin 4) * 96 ≤ (i 2).val ∧ (i 2).val < win0_2.index ⟨4 * (i 0).val + 3, hn⟩ (2 : Fin 4) * 96 + 96; omega
  | ⟨3, _⟩ => show win0_2.index ⟨4 * (i 0).val + 3, hn⟩ (3 : Fin 4) * 320 ≤ (i 3).val ∧ (i 3).val < win0_2.index ⟨4 * (i 0).val + 3, hn⟩ (3 : Fin 4) * 320 + 320; omega

/-- THE RESULT ARRAY after the run is the cost volume of the arrays the region found. -/
theorem final (c : Dev nD) : (dats m 0 c).arrAt 2 cfg0.N = cost (xarr m c) (parr m c) :=
  (dats m 0 c).arrAt_eq_of_cover 2 (cost (xarr m c) (parr m c)) (fun t hf => flushed_eq m c t hf) cover

/-- The padded second map is the host's padding of the second argument with the converted integer zero. -/
theorem parr_eq (c : Dev nD) :
    parr m c = pad S8x256x96x328 ![0, 0, 0, 4] ![0, 0, 0, 4] ![0, 0, 0, 0] (m ((c : Thread nD τ).loc main_arg1))
      (sitofp (F := Ideal) .f32 (constantI S_ 32 0#32)) pads_S8x256x96x320_S8x256x96x328_000_000_000_440 h_S_ := by
  show V m c main_v0 = _
  dsimp only [Gen.V]
  simp only [hostOps0, hostOps0_1, List.flatten_cons, List.flatten_nil, List.append_nil, List.cons_append,
    List.nil_append]
  after_results
  rfl

/-- THE RUN, READ: the result at the cost volume of the first argument and the padded second, the arguments unchanged. -/
theorem run : θ_run defs (onTc (τ := τ) (main (F := Ideal))) ⟨m, fun _ => 0, ρ⟩ fun r => ∀ c : Dev nD,
      r.2.mem ((c : Thread nD τ).loc main_v1)
        = cost (m ((c : Thread nD τ).loc main_arg0))
            (pad S8x256x96x328 ![0, 0, 0, 4] ![0, 0, 0, 4] ![0, 0, 0, 0] (m ((c : Thread nD τ).loc main_arg1))
              (sitofp (F := Ideal) .f32 (constantI S_ 32 0#32)) pads_S8x256x96x320_S8x256x96x328_000_000_000_440 h_S_)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (by
      rw [final m c, ← parr_eq m c]
      show cost (V m c main_arg0) _ = _
      rw [V_main_arg0 m c]), (h c).2⟩)
    (Value.run_blocks m ρ)

end Cert.KernelIdeal.CostValue

end
-- ==== Proof.RefShift.lean ====
/-
  One displacement of the reference, read at a position.

  For each displacement r the reference slices the padded second map at column offset r (a dynamic slice whose start
  indices are the constants 0, 0, 0, r, so the clamp does nothing), multiplies by the first map, sums over the
  channel axis from the initial value 0, and divides by 256. Over the extended reals that is the correlation over
  all 256 channels times 1/256: the sum from 0 is the sum, and dividing by the real 256 is multiplying by 1/256.
-/
import Idealize.ShloMosaic.PureOps.Ideal.Laws
import Idealize.ShloMosaic.Lib.ValueIdx
import Idealize.ShloMosaic.Lib.Pipeline.Value
import Idealize.ShloMosaic.Lib.DynamicIndex
import proofs.«120714_j82008105550452_1_alg».proof.Proof.CostVolume
import proofs.«120714_j82008105550452_1_alg».proof.Proof.Consts

noncomputable section

open scoped BigOperators

namespace Cert.CostVolume

open Idealize.ShloMosaic Idealize.ShloMosaic.ValueIdx

/-- A scalar's shape. -/
abbrev Sc : Shape := ⟨0, ![]⟩

/-- The channel mean at displacement r, as the reference computes it, read at (b, h, w). -/
theorem shiftedMean_apply (r : ℕ) (hr : r ≤ 8) (x : FVec Ideal Feat .f32) (p : FVec Ideal PFeat .f32)
    (start : Fin 4 → Int) (hstart : ∀ a, start a = ((![0, 0, 0, r] : Fin 4 → ℕ) a : Int))
    (hfit : PFeat.Slices (fun _ => 0) Feat) (hred : Feat.ReducesTo [1] Plane) (h0 : 0 < Sc.numel)
    (hb : Sc.BroadcastsInDim Plane ![]) (b : Fin 8) (h : Fin 96) (w : Fin 320) :
    Host.divf (Host.reduceAdd (mulf x (Host.dynamicSlice Feat p start hfit)) (constant Sc .f32 0x00000000#32) hred h0)
        (broadcastInDim Plane ![] hb (constant Sc .f32 0x43800000#32)) (ix3 b h w)
      = corr x p b r hr h w * ((1 / 256 : ℝ) : EReal) := by
  have hoff : PFeat.Slices ![0, 0, 0, r] Feat := ⟨rfl, fun a => by
    match a with
    | ⟨0, _⟩ => show 0 + 8 ≤ 8; omega
    | ⟨1, _⟩ => show 0 + 256 ≤ 256; omega
    | ⟨2, _⟩ => show 0 + 96 ≤ 96; omega
    | ⟨3, _⟩ => show r + 320 ≤ 328; omega⟩
  have hR : Feat.Reduces [1] Plane := by decide
  rw [Host.dynamicSlice_eq_extractStridedSlice Feat p start ![0, 0, 0, r] hfit hoff hstart]
  show Ideal.div (Ideal.hostReduceAdd hred (mulf x (extractStridedSlice Feat ![0, 0, 0, r] p hoff))
      (Ideal.ofBits .f32 0x00000000#32) (ix3 b h w)) (Ideal.ofBits .f32 0x43800000#32) = _
  rw [Ideal.hostReduceAdd_single hred hR, Ideal.ofBits_zero_f32, zero_add, ofBits_256,
    Ideal.div_coe (by norm_num : (256 : ℝ) ≠ 0)]
  congr 1
  unfold corr
  refine Finset.sum_congr rfl fun (c : Fin 256) _ => ?_
  have e : hR.lift (ix3 b h w) c = ix4 b c h w := by
    funext d; apply Fin.ext
    match d with
    | ⟨0, _⟩ => rfl
    | ⟨1, _⟩ => rfl
    | ⟨2, _⟩ => rfl
    | ⟨3, _⟩ => rfl
  rw [e]
  show x (ix4 b c h w) * extractStridedSlice Feat ![0, 0, 0, r] p hoff (ix4 b c h w) = _
  congr 1
  refine extractStridedSlice_apply ![0, 0, 0, r] p hoff (ix4 b c h w) (ix4 b c h (colAt w r hr)) fun d => ?_
  match d with
  | ⟨0, _⟩ => show b.val = 0 + b.val; omega
  | ⟨1, _⟩ => show c.val = 0 + c.val; omega
  | ⟨2, _⟩ => show h.val = 0 + h.val; omega
  | ⟨3, _⟩ => show w.val + r = r + w.val; omega

end Cert.CostVolume

end
-- ==== Proof.RefValue.lean ====
/-
  The reference, read at an index.

  The reference computes the nine displacement planes one after the other — slice the padded second map at column
  offset r, multiply by the first map, sum over the channels, divide by 256 — gives each a unit axis and joins the
  nine along it. At (b, r, h, w) the joined array holds plane r at (b, h, w): the cost volume.
-/
import proofs.«120714_j82008105550452_1_alg».proof.Proof.RefRead
import proofs.«120714_j82008105550452_1_alg».proof.Proof.RefShift
import Idealize.ShloMosaic.Lib.Pipeline.Value

noncomputable section

open scoped BigOperators

namespace Cert.ReferenceIdeal.RefValue

open Idealize.ShloMosaic Idealize.ShloMosaic.ValueIdx Cert.ReferenceIdeal Cert.ReferenceIdeal.Gen Cert.ReferenceIdeal.RefRead
open Cert.CostVolume

/-- Displacement 0: the reference's channel mean at (b, h, w). -/
theorem mean0 (x0 x1 : (⟨S8x256x96x320, .f32⟩ : BufTy).Contents (Elt Ideal)) (b : Fin 8) (h : Fin 96) (w : Fin 320) :
    val_main_v5 (F := Ideal) x0 x1 (ix3 b h w)
      = corr x0 (val_main_v0 (F := Ideal) x1) b 0 (by omega) h w * ((1 / 256 : ℝ) : EReal) := by
  unfold val_main_v5 val_main_v3 val_main_v2 val_main_v1 val_main_v4 val_main_cst val_main_cst_4
  exact shiftedMean_apply 0 (by omega) x0 (val_main_v0 (F := Ideal) x1) _
    (fun a => by
      match a with
      | ⟨0, _⟩ => rfl
      | ⟨1, _⟩ => rfl
      | ⟨2, _⟩ => rfl
      | ⟨3, _⟩ => rfl) _ _ _ _ b h w

/-- Displacement 1: the reference's channel mean at (b, h, w). -/
theorem mean1 (x0 x1 : (⟨S8x256x96x320, .f32⟩ : BufTy).Contents (Elt Ideal)) (b : Fin 8) (h : Fin 96) (w : Fin 320) :
    val_main_v10 (F := Ideal) x0 x1 (ix3 b h w)
      = corr x0 (val_main_v0 (F := Ideal) x1) b 1 (by omega) h w * ((1 / 256 : ℝ) : EReal) := by
  unfold val_main_v10 val_main_v8 val_main_v7 val_main_v6 val_main_v9 val_main_cst_9 val_main_cst_10
  exact shiftedMean_apply 1 (by omega) x0 (val_main_v0 (F := Ideal) x1) _
    (fun a => by
      match a with
      | ⟨0, _⟩ => rfl
      | ⟨1, _⟩ => rfl
      | ⟨2, _⟩ => rfl
      | ⟨3, _⟩ => rfl) _ _ _ _ b h w

/-- Displacement 2: the reference's channel mean at (b, h, w). -/
theorem mean2 (x0 x1 : (⟨S8x256x96x320, .f32⟩ : BufTy).Contents (Elt Ideal)) (b : Fin 8) (h : Fin 96) (w : Fin 320) :
    val_main_v15 (F := Ideal) x0 x1 (ix3 b h w)
      = corr x0 (val_main_v0 (F := Ideal) x1) b 2 (by omega) h w * ((1 / 256 : ℝ) : EReal) := by
  unfold val_main_v15 val_main_v13 val_main_v12 val_main_v11 val_main_v14 val_main_cst_15 val_main_cst_16
  exact shiftedMean_apply 2 (by omega) x0 (val_main_v0 (F := Ideal) x1) _
    (fun a => by
      match a with
      | ⟨0, _⟩ => rfl
      | ⟨1, _⟩ => rfl
      | ⟨2, _⟩ => rfl
      | ⟨3, _⟩ => rfl) _ _ _ _ b h w

/-- Displacement 3: the reference's channel mean at (b, h, w). -/
theorem mean3 (x0 x1 : (⟨S8x256x96x320, .f32⟩ : BufTy).Contents (Elt Ideal)) (b : Fin 8) (h : Fin 96) (w : Fin 320) :
    val_main_v20 (F := Ideal) x0 x1 (ix3 b h w)
      = corr x0 (val_main_v0 (F := Ideal) x1) b 3 (by omega) h w * ((1 / 256 : ℝ) : EReal) := by
  unfold val_main_v20 val_main_v18 val_main_v17 val_main_v16 val_main_v19 val_main_cst_21 val_main_cst_22
  exact shiftedMean_apply 3 (by omega) x0 (val_main_v0 (F := Ideal) x1) _
    (fun a => by
      match a with
      | ⟨0, _⟩ => rfl
      | ⟨1, _⟩ => rfl
      | ⟨2, _⟩ => rfl
      | ⟨3, _⟩ => rfl) _ _ _ _ b h w

/-- Displacement 4: the reference's channel mean at (b, h, w). -/
theorem mean4 (x0 x1 : (⟨S8x256x96x320, .f32⟩ : BufTy).Contents (Elt Ideal)) (b : Fin 8) (h : Fin 96) (w : Fin 320) :
    val_main_v25 (F := Ideal) x0 x1 (ix3 b h w)
      = corr x0 (val_main_v0 (F := Ideal) x1) b 4 (by omega) h w * ((1 / 256 : ℝ) : EReal) := by
  unfold val_main_v25 val_main_v23 val_main_v22 val_main_v21 val_main_v24 val_main_cst_27 val_main_cst_28
  exact shiftedMean_apply 4 (by omega) x0 (val_main_v0 (F := Ideal) x1) _
    (fun a => by
      match a with
      | ⟨0, _⟩ => rfl
      | ⟨1, _⟩ => rfl
      | ⟨2, _⟩ => rfl
      | ⟨3, _⟩ => rfl) _ _ _ _ b h w

/-- Displacement 5: the reference's channel mean at (b, h, w). -/
theorem mean5 (x0 x1 : (⟨S8x256x96x320, .f32⟩ : BufTy).Contents (Elt Ideal)) (b : Fin 8) (h : Fin 96) (w : Fin 320) :
    val_main_v30 (F := Ideal) x0 x1 (ix3 b h w)
      = corr x0 (val_main_v0 (F := Ideal) x1) b 5 (by omega) h w * ((1 / 256 : ℝ) : EReal) := by
  unfold val_main_v30 val_main_v28 val_main_v27 val_main_v26 val_main_v29 val_main_cst_33 val_main_cst_34
  exact shiftedMean_apply 5 (by omega) x0 (val_main_v0 (F := Ideal) x1) _
    (fun a => by
      match a with
      | ⟨0, _⟩ => rfl
      | ⟨1, _⟩ => rfl
      | ⟨2, _⟩ => rfl
      | ⟨3, _⟩ => rfl) _ _ _ _ b h w

/-- Displacement 6: the reference's channel mean at (b, h, w). -/
theorem mean6 (x0 x1 : (⟨S8x256x96x320, .f32⟩ : BufTy).Contents (Elt Ideal)) (b : Fin 8) (h : Fin 96) (w : Fin 320) :
    val_main_v35 (F := Ideal) x0 x1 (ix3 b h w)
      = corr x0 (val_main_v0 (F := Ideal) x1) b 6 (by omega) h w * ((1 / 256 : ℝ) : EReal) := by
  unfold val_main_v35 val_main_v33 val_main_v32 val_main_v31 val_main_v34 val_main_cst_39 val_main_cst_40
  exact shiftedMean_apply 6 (by omega) x0 (val_main_v0 (F := Ideal) x1) _
    (fun a => by
      match a with
      | ⟨0, _⟩ => rfl
      | ⟨1, _⟩ => rfl
      | ⟨2, _⟩ => rfl
      | ⟨3, _⟩ => rfl) _ _ _ _ b h w

/-- Displacement 7: the reference's channel mean at (b, h, w). -/
theorem mean7 (x0 x1 : (⟨S8x256x96x320, .f32⟩ : BufTy).Contents (Elt Ideal)) (b : Fin 8) (h : Fin 96) (w : Fin 320) :
    val_main_v40 (F := Ideal) x0 x1 (ix3 b h w)
      = corr x0 (val_main_v0 (F := Ideal) x1) b 7 (by omega) h w * ((1 / 256 : ℝ) : EReal) := by
  unfold val_main_v40 val_main_v38 val_main_v37 val_main_v36 val_main_v39 val_main_cst_45 val_main_cst_46
  exact shiftedMean_apply 7 (by omega) x0 (val_main_v0 (F := Ideal) x1) _
    (fun a => by
      match a with
      | ⟨0, _⟩ => rfl
      | ⟨1, _⟩ => rfl
      | ⟨2, _⟩ => rfl
      | ⟨3, _⟩ => rfl) _ _ _ _ b h w

/-- Displacement 8: the reference's channel mean at (b, h, w). -/
theorem mean8 (x0 x1 : (⟨S8x256x96x320, .f32⟩ : BufTy).Contents (Elt Ideal)) (b : Fin 8) (h : Fin 96) (w : Fin 320) :
    val_main_v45 (F := Ideal) x0 x1 (ix3 b h w)
      = corr x0 (val_main_v0 (F := Ideal) x1) b 8 (by omega) h w * ((1 / 256 : ℝ) : EReal) := by
  unfold val_main_v45 val_main_v43 val_main_v42 val_main_v41 val_main_v44 val_main_cst_51 val_main_cst_52
  exact shiftedMean_apply 8 (by omega) x0 (val_main_v0 (F := Ideal) x1) _
    (fun a => by
      match a with
      | ⟨0, _⟩ => rfl
      | ⟨1, _⟩ => rfl
      | ⟨2, _⟩ => rfl
      | ⟨3, _⟩ => rfl) _ _ _ _ b h w

/-- Plane r with its unit axis: the r-th operand of the reference's join. -/
def planeFn (x0 x1 : (⟨S8x256x96x320, .f32⟩ : BufTy).Contents (Elt Ideal)) : Fin 9 → (S8x1x96x320.Idx → Elt Ideal .f32)
  | ⟨0, _⟩ => val_main_v46 (F := Ideal) x0 x1
  | ⟨1, _⟩ => val_main_v47 (F := Ideal) x0 x1
  | ⟨2, _⟩ => val_main_v48 (F := Ideal) x0 x1
  | ⟨3, _⟩ => val_main_v49 (F := Ideal) x0 x1
  | ⟨4, _⟩ => val_main_v50 (F := Ideal) x0 x1
  | ⟨5, _⟩ => val_main_v51 (F := Ideal) x0 x1
  | ⟨6, _⟩ => val_main_v52 (F := Ideal) x0 x1
  | ⟨7, _⟩ => val_main_v53 (F := Ideal) x0 x1
  | ⟨8, _⟩ => val_main_v54 (F := Ideal) x0 x1
  | ⟨n + 9, h⟩ => absurd h (by omega)

/-- Plane r with its unit axis, read at (b, 0, h, w): the channel mean at displacement r. -/
theorem planeFn_apply (x0 x1 : (⟨S8x256x96x320, .f32⟩ : BufTy).Contents (Elt Ideal)) (r : Fin 9)
    (b : Fin 8) (h : Fin 96) (w : Fin 320) :
    planeFn x0 x1 r (ix4 b (0 : Fin 1) h w)
      = corr x0 (val_main_v0 (F := Ideal) x1) b r.val (Nat.le_of_lt_succ r.isLt) h w * ((1 / 256 : ℝ) : EReal) := by
  match r with
  | ⟨0, _⟩ =>
    exact ((val_main_v46_apply (F := Ideal) x0 x1 _).trans (congrArg (val_main_v5 (F := Ideal) x0 x1)
      (show idx_main_v46 (ix4 b (0 : Fin 1) h w : S8x1x96x320.Idx) = (ix3 b h w : S8x96x320.Idx) from
        funext fun a => by
          match a with
          | ⟨0, _⟩ => rfl
          | ⟨1, _⟩ => rfl
          | ⟨2, _⟩ => rfl))).trans (mean0 x0 x1 b h w)
  | ⟨1, _⟩ =>
    exact ((val_main_v47_apply (F := Ideal) x0 x1 _).trans (congrArg (val_main_v10 (F := Ideal) x0 x1)
      (show idx_main_v47 (ix4 b (0 : Fin 1) h w : S8x1x96x320.Idx) = (ix3 b h w : S8x96x320.Idx) from
        funext fun a => by
          match a with
          | ⟨0, _⟩ => rfl
          | ⟨1, _⟩ => rfl
          | ⟨2, _⟩ => rfl))).trans (mean1 x0 x1 b h w)
  | ⟨2, _⟩ =>
    exact ((val_main_v48_apply (F := Ideal) x0 x1 _).trans (congrArg (val_main_v15 (F := Ideal) x0 x1)
      (show idx_main_v48 (ix4 b (0 : Fin 1) h w : S8x1x96x320.Idx) = (ix3 b h w : S8x96x320.Idx) from
        funext fun a => by
          match a with
          | ⟨0, _⟩ => rfl
          | ⟨1, _⟩ => rfl
          | ⟨2, _⟩ => rfl))).trans (mean2 x0 x1 b h w)
  | ⟨3, _⟩ =>
    exact ((val_main_v49_apply (F := Ideal) x0 x1 _).trans (congrArg (val_main_v20 (F := Ideal) x0 x1)
      (show idx_main_v49 (ix4 b (0 : Fin 1) h w : S8x1x96x320.Idx) = (ix3 b h w : S8x96x320.Idx) from
        funext fun a => by
          match a with
          | ⟨0, _⟩ => rfl
          | ⟨1, _⟩ => rfl
          | ⟨2, _⟩ => rfl))).trans (mean3 x0 x1 b h w)
  | ⟨4, _⟩ =>
    exact ((val_main_v50_apply (F := Ideal) x0 x1 _).trans (congrArg (val_main_v25 (F := Ideal) x0 x1)
      (show idx_main_v50 (ix4 b (0 : Fin 1) h w : S8x1x96x320.Idx) = (ix3 b h w : S8x96x320.Idx) from
        funext fun a => by
          match a with
          | ⟨0, _⟩ => rfl
          | ⟨1, _⟩ => rfl
          | ⟨2, _⟩ => rfl))).trans (mean4 x0 x1 b h w)
  | ⟨5, _⟩ =>
    exact ((val_main_v51_apply (F := Ideal) x0 x1 _).trans (congrArg (val_main_v30 (F := Ideal) x0 x1)
      (show idx_main_v51 (ix4 b (0 : Fin 1) h w : S8x1x96x320.Idx) = (ix3 b h w : S8x96x320.Idx) from
        funext fun a => by
          match a with
          | ⟨0, _⟩ => rfl
          | ⟨1, _⟩ => rfl
          | ⟨2, _⟩ => rfl))).trans (mean5 x0 x1 b h w)
  | ⟨6, _⟩ =>
    exact ((val_main_v52_apply (F := Ideal) x0 x1 _).trans (congrArg (val_main_v35 (F := Ideal) x0 x1)
      (show idx_main_v52 (ix4 b (0 : Fin 1) h w : S8x1x96x320.Idx) = (ix3 b h w : S8x96x320.Idx) from
        funext fun a => by
          match a with
          | ⟨0, _⟩ => rfl
          | ⟨1, _⟩ => rfl
          | ⟨2, _⟩ => rfl))).trans (mean6 x0 x1 b h w)
  | ⟨7, _⟩ =>
    exact ((val_main_v53_apply (F := Ideal) x0 x1 _).trans (congrArg (val_main_v40 (F := Ideal) x0 x1)
      (show idx_main_v53 (ix4 b (0 : Fin 1) h w : S8x1x96x320.Idx) = (ix3 b h w : S8x96x320.Idx) from
        funext fun a => by
          match a with
          | ⟨0, _⟩ => rfl
          | ⟨1, _⟩ => rfl
          | ⟨2, _⟩ => rfl))).trans (mean7 x0 x1 b h w)
  | ⟨8, _⟩ =>
    exact ((val_main_v54_apply (F := Ideal) x0 x1 _).trans (congrArg (val_main_v45 (F := Ideal) x0 x1)
      (show idx_main_v54 (ix4 b (0 : Fin 1) h w : S8x1x96x320.Idx) = (ix3 b h w : S8x96x320.Idx) from
        funext fun a => by
          match a with
          | ⟨0, _⟩ => rfl
          | ⟨1, _⟩ => rfl
          | ⟨2, _⟩ => rfl))).trans (mean8 x0 x1 b h w)

/-- THE REFERENCE'S RESULT is the cost volume of its first argument and its padded second argument. -/
theorem result_eq (x0 x1 : (⟨S8x256x96x320, .f32⟩ : BufTy).Contents (Elt Ideal)) :
    val_main_v55 (F := Ideal) x0 x1 = cost x0 (val_main_v0 (F := Ideal) x1) := by
  funext j
  obtain ⟨b, r, h, w, rfl⟩ : ∃ (b : Fin 8) (r : Fin 9) (h : Fin 96) (w : Fin 320), j = ix4 b r h w :=
    ⟨j 0, j 1, j 2, j 3, eq_ix4 j⟩
  unfold val_main_v55
  show concatenate S8x9x96x320 1
      (List.ofFn fun n : Fin 9 => (⟨S8x1x96x320, planeFn x0 x1 n⟩ : (s : Shape) × (s.Idx → Elt Ideal .f32))) _ (ix4 b r h w) = _
  refine (concatenate_ofFn_unit_apply (t := S8x9x96x320) (s₁ := S8x1x96x320) (1 : Fin 4) (planeFn x0 x1) _ rfl rfl
    (ix4 b r h w) r rfl (ix4 b (0 : Fin 1) h w)
    (fun d hd => ?_)).trans (planeFn_apply x0 x1 r b h w)
  match d with
  | ⟨0, _⟩ => rfl
  | ⟨1, _⟩ => exact absurd rfl hd
  | ⟨2, _⟩ => rfl
  | ⟨3, _⟩ => rfl

end Cert.ReferenceIdeal.RefValue

end
-- ==== Proof.lean ====
/-
  The cost volume kernel against its reference.

  Both programs pad the second feature map with four zero columns on each side of the width axis and compute, for a
  batch entry b, a displacement r in 0..8, a row h and a column w,

      (sum over the 256 channels c of  feat1 (b, c, h, w) * padded (b, c, h, w + r)) * (1 / 256).

  The kernel takes the sum as four runs of 64 channels accumulated over four grid points (the accumulator reset at
  the first of them) and multiplies by the constant 1/256; the reference sums the 256 channels at once from the
  initial value 0 and divides by 256. Over the extended reals the two agree on every input: addition is commutative
  and associative on all of them, and dividing by the real 256 is multiplying by its reciprocal. The precondition is
  never opened. The idealization rewrote nothing, so it is preserved trivially.
-/
import proofs.«120714_j82008105550452_1_alg».proof.Defs
import proofs.«120714_j82008105550452_1_alg».proof.Proof.Gen.Kernel
import proofs.«120714_j82008105550452_1_alg».proof.Proof.Gen.Kernel.Skeleton
import proofs.«120714_j82008105550452_1_alg».proof.Proof.Gen.Kernel.Launch
import proofs.«120714_j82008105550452_1_alg».proof.Proof.Gen.Kernel.Points
import proofs.«120714_j82008105550452_1_alg».proof.Proof.Gen.Kernel.Frame
import proofs.«120714_j82008105550452_1_alg».proof.Proof.Gen.KernelIdeal
import proofs.«120714_j82008105550452_1_alg».proof.Proof.Gen.KernelIdeal.Skeleton
import proofs.«120714_j82008105550452_1_alg».proof.Proof.Gen.KernelIdeal.Launch
import proofs.«120714_j82008105550452_1_alg».proof.Proof.Gen.KernelIdeal.Points
import proofs.«120714_j82008105550452_1_alg».proof.Proof.Gen.KernelIdeal.Frame
import proofs.«120714_j82008105550452_1_alg».proof.Proof.Gen.ReferenceIdeal
import proofs.«120714_j82008105550452_1_alg».proof.Proof.Gen.Pre_finite_inputs
import proofs.«120714_j82008105550452_1_alg».proof.Proof.Gen.KernelIdeal.Value
import proofs.«120714_j82008105550452_1_alg».proof.Proof.RefRun
import proofs.«120714_j82008105550452_1_alg».proof.Proof.RefRead
import proofs.«120714_j82008105550452_1_alg».proof.Proof.KernelValue
import proofs.«120714_j82008105550452_1_alg».proof.Proof.RefValue
import Idealize.ShloMosaic.Adequacy
import Idealize.ShloMosaic.Init

noncomputable section

namespace Cert.Proof

open Idealize.ShloMosaic Idealize.ShloMosaic.TcCoe Idealize.SL.Sem

/-- The three programs run, fault nowhere and leave their arguments as they were: the two kernels by their launch
    proofs, the reference by its run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the two feature maps, both programs end with the cost volume of the first map and the
    padded second one. -/
theorem algebraic : Cert.algebraic_KernelIdeal_ReferenceIdeal := by
  intro m ρ m' ρ' _ hagree
  refine ⟨_, Cert.KernelIdeal.CostValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRead.val_main_v55_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
